-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x5636096 : Shape := ⟨2, ![2, 5636096]⟩
abbrev S2x256x4 : Shape := ⟨3, ![2, 256, 4]⟩
abbrev S704512x1 : Shape := ⟨2, ![704512, 1]⟩
abbrev S_ : Shape := ⟨0, ![]⟩

class Facts : Prop where
  bcast_S_S2x256x4 : S_.BroadcastsInDim S2x256x4 (![] : Fin 0 → Fin S2x256x4.rank)
  reducesTo_S2x256x4_S_d0_1_2 : S2x256x4.ReducesTo [0, 1, 2] S_
  h_S_ : 0 < S_.numel
  bcast_S_S704512x1 : S_.BroadcastsInDim S704512x1 (![] : Fin 0 → Fin S704512x1.rank)
  reducesTo_S704512x1_S_d0_1 : S704512x1.ReducesTo [0, 1] S_
  bcast_S_S2x5636096 : S_.BroadcastsInDim S2x5636096 (![] : Fin 0 → Fin S2x5636096.rank)
  reducesTo_S2x5636096_S_d0_1 : S2x5636096.ReducesTo [0, 1] S_

variable [Facts]

def fn {F : FTy → Type} [FloatOps F] (main_arg0 : IVec S2x5636096 32) (main_arg1 : FVec F S2x256x4 .f32) (main_arg2 : FVec F S704512x1 .f32) : IVec S_ 1 :=
  let main_v0 : FVec F S2x256x4 .f32 := Host.absf main_arg1
  let main_cst : FVec F S_ .f32 := constant S_ .f32 0x7F800000#32
  let main_v1 : FVec F S2x256x4 .f32 := broadcastInDim S2x256x4 ![] bcast_S_S2x256x4 main_cst
  let main_v2 : IVec S2x256x4 1 := cmpf .olt main_v0 main_v1
  let main_c : IVec S_ 1 := constantI S_ 1 1#1
  let main_v3 : IVec S_ 1 := (fun x v => Host.reduce IntOp.andi x v reducesTo_S2x256x4_S_d0_1_2 h_S_) main_v2 main_c
  let main_v4 : FVec F S704512x1 .f32 := Host.absf main_arg2
  let main_cst_0 : FVec F S_ .f32 := constant S_ .f32 0x7F800000#32
  let main_v5 : FVec F S704512x1 .f32 := broadcastInDim S704512x1 ![] bcast_S_S704512x1 main_cst_0
  let main_v6 : IVec S704512x1 1 := cmpf .olt main_v4 main_v5
  let main_c_1 : IVec S_ 1 := constantI S_ 1 1#1
  let main_v7 : IVec S_ 1 := (fun x v => Host.reduce IntOp.andi x v reducesTo_S704512x1_S_d0_1 h_S_) main_v6 main_c_1
  let main_v8 : IVec S_ 1 := andi main_v3 main_v7
  let main_c_2 : IVec S_ 32 := constantI S_ 32 0#32
  let main_v9 : IVec S2x5636096 32 := broadcastInDim S2x5636096 ![] bcast_S_S2x5636096 main_c_2
  let main_v10 : IVec S2x5636096 1 := cmpi .sge main_arg0 main_v9
  let main_c_3 : IVec S_ 32 := constantI S_ 32 256#32
  let main_v11 : IVec S2x5636096 32 := broadcastInDim S2x5636096 ![] bcast_S_S2x5636096 main_c_3
  let main_v12 : IVec S2x5636096 1 := cmpi .slt main_arg0 main_v11
  let main_v13 : IVec S2x5636096 1 := andi main_v10 main_v12
  let main_c_4 : IVec S_ 1 := constantI S_ 1 1#1
  let main_v14 : IVec S_ 1 := (fun x v => Host.reduce IntOp.andi x v reducesTo_S2x5636096_S_d0_1 h_S_) main_v13 main_c_4
  let main_v15 : IVec S_ 1 := andi main_v8 main_v14
  main_v15
-- ==== Kernel.lean ====
abbrev S2x5636096 : Shape := ⟨2, ![2, 5636096]⟩
abbrev S2x256x4 : Shape := ⟨3, ![2, 256, 4]⟩
abbrev S704512x1 : Shape := ⟨2, ![704512, 1]⟩
abbrev S2x5636096x1 : Shape := ⟨3, ![2, 5636096, 1]⟩
abbrev S2x352256x1 : Shape := ⟨3, ![2, 352256, 1]⟩
abbrev S2x352256x16x1 : Shape := ⟨4, ![2, 352256, 16, 1]⟩
abbrev S2x5636096x4 : Shape := ⟨3, ![2, 5636096, 4]⟩
abbrev S1x8192x1 : Shape := ⟨3, ![1, 8192, 1]⟩
abbrev S1x256x4 : Shape := ⟨3, ![1, 256, 4]⟩
abbrev S1x8192x4 : Shape := ⟨3, ![1, 8192, 4]⟩
abbrev S256x4 : Shape := ⟨2, ![256, 4]⟩
abbrev S1024x256 : Shape := ⟨2, ![1024, 256]⟩
abbrev S1x1024x1 : Shape := ⟨3, ![1, 1024, 1]⟩
abbrev S1024x1 : Shape := ⟨2, ![1024, 1]⟩
abbrev S1024x4 : Shape := ⟨2, ![1024, 4]⟩
abbrev S1x1024x4 : Shape := ⟨3, ![1, 1024, 4]⟩
abbrev S4096x11008 : Shape := ⟨2, ![4096, 11008]⟩

abbrev nBuf : Space → Nat
  | .hbm => 13
  | .vmem => 10
  | .smem => 0
  | _ => 0

abbrev bufTy : (tb : Table) → Fin (tcTables nBuf tb) → BufTy
  | .hbm, ⟨0, _⟩ => ⟨S2x5636096, .i32⟩
  | .hbm, ⟨1, _⟩ => ⟨S2x256x4, .f32⟩
  | .hbm, ⟨2, _⟩ => ⟨S704512x1, .f32⟩
  | .hbm, ⟨3, _⟩ => ⟨S2x256x4, .bf16⟩
  | .hbm, ⟨4, _⟩ => ⟨S2x256x4, .f32⟩
  | .hbm, ⟨5, _⟩ => ⟨S2x256x4, .f32⟩
  | .hbm, ⟨6, _⟩ => ⟨S2x256x4, .bf16⟩
  | .hbm, ⟨7, _⟩ => ⟨S2x5636096x1, .i32⟩
  | .hbm, ⟨8, _⟩ => ⟨S2x352256x1, .f32⟩
  | .hbm, ⟨9, _⟩ => ⟨S2x352256x16x1, .f32⟩
  | .hbm, ⟨10, _⟩ => ⟨S2x5636096x1, .f32⟩
  | .hbm, ⟨11, _⟩ => ⟨S2x5636096x4, .f32⟩
  | .hbm, ⟨12, _⟩ => ⟨S4096x11008, .f32⟩
  | .local _ .vmem, ⟨0, _⟩ => ⟨S1x8192x1, .i32⟩
  | .local _ .vmem, ⟨1, _⟩ => ⟨S1x8192x1, .i32⟩
  | .local _ .vmem, ⟨2, _⟩ => ⟨S1x256x4, .bf16⟩
  | .local _ .vmem, ⟨3, _⟩ => ⟨S1x256x4, .bf16⟩
  | .local _ .vmem, ⟨4, _⟩ => ⟨S1x256x4, .bf16⟩
  | .local _ .vmem, ⟨5, _⟩ => ⟨S1x256x4, .bf16⟩
  | .local _ .vmem, ⟨6, _⟩ => ⟨S1x8192x1, .f32⟩
  | .local _ .vmem, ⟨7, _⟩ => ⟨S1x8192x1, .f32⟩
  | .local _ .vmem, ⟨8, _⟩ => ⟨S1x8192x4, .f32⟩
  | .local _ .vmem, ⟨9, _⟩ => ⟨S1x8192x4, .f32⟩
  | _, _ => ⟨S2x5636096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 688], ![false, false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v6 : BitVec 32 := Scalar.muli arg7 c1_i32_6
  let v7 : BitVec 32 := Scalar.addi c0_i32_7 v6
  let c1024_i32 : BitVec 32 := 1024#32
  let v8 : BitVec 32 := Scalar.muli v7 c1024_i32
  v8
def k0_off1 (k0_t1 : Fin k0_t1_loop.trips) : Fin 3 → Nat :=
  let c0_8 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v6 : BitVec 32 := Scalar.muli arg7 c1_i32_6
  let v7 : BitVec 32 := Scalar.addi c0_i32_7 v6
  let c1024_i32 : BitVec 32 := 1024#32
  let v8 : BitVec 32 := Scalar.muli v7 c1024_i32
  let v9 : BitVec 32 := v8
  let v10 : Index := Scalar.indexCast v9
  let c0_9 : Index := 0#32
  ![0, v10.toNat, 0]
def k0_off2 (k0_t1 : Fin k0_t1_loop.trips) : Fin 3 → Nat :=
  let c0_14 : Index := 0#32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v6 : BitVec 32 := Scalar.muli arg7 c1_i32_6
  let v7 : BitVec 32 := Scalar.addi c0_i32_7 v6
  let c1024_i32 : BitVec 32 := 1024#32
  let v8 : BitVec 32 := Scalar.muli v7 c1024_i32
  let v9 : BitVec 32 := v8
  let v30 : Index := Scalar.indexCast v9
  let c0_15 : Index := 0#32
  ![0, v30.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  bcast_S2x5636096_S2x5636096x1_0_1 : S2x5636096.BroadcastsInDim S2x5636096x1 (![0, 1] : Fin 2 → Fin S2x5636096x1.rank)
  shapeCasts_S704512x1_S2x352256x1 : S704512x1.ShapeCasts S2x352256x1
  bcast_S2x352256x1_S2x352256x16x1_0_1_3 : S2x352256x1.BroadcastsInDim S2x352256x16x1 (![0, 1, 3] : Fin 3 → Fin S2x352256x16x1.rank)
  shapeCasts_S2x352256x16x1_S2x5636096x1 : S2x352256x16x1.ShapeCasts S2x5636096x1
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  iota_S1024x256_d1_w32 : S1024x256.Iotas .tc 32 [1]
  h_S1x1024x1 : 0 < S1x1024x1.numel
  shapeCasts_S1x1024x1_S1024x1 : S1x1024x1.ShapeCasts S1024x1
  broadcasts_S1024x1_S1024x256 : S1024x1.Broadcasts S1024x256
  natLt_1_32 : 1 < 32
  broadcasts_S1024x1_S1024x4 : S1024x1.Broadcasts S1024x4
  h_S1x1024x4 : 0 < S1x1024x4.numel
  shapeCasts_S1x1024x4_S1024x4 : S1x1024x4.ShapeCasts S1024x4
  shapeCasts_S1024x4_S1x1024x4 : S1024x4.ShapeCasts S1x1024x4
  shapeCasts_S2x5636096x4_S4096x11008 : S2x5636096x4.ShapeCasts S4096x11008
  dot_S1024x256_S256x4_S1024x4_1_0_0_1_n_n_wf : DotDims.WF S1024x256 S256x4 S1024x4 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x1.size a ≤ S1x8192x1.size a
  k0_off2_inb : ∀ k0_t1 : Fin k0_t1_loop.trips, ∀ a, (k0_off2 k0_t1) a + S1x1024x4.size a ≤ S1x8192x4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x1.size a ≤ S2x5636096x1.size a
  hwx0_0 : ∀ i : grid0.Coords, EltTy.bits .i32 = 32 ∨ (Rect.block (s := S2x5636096x1) S1x8192x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4.size a ≤ S2x256x4.size a
  hwx0_1 : ∀ i : grid0.Coords, EltTy.bits .bf16 = 32 ∨ (Rect.block (s := S2x256x4) S1x256x4.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4.size a ≤ S2x256x4.size a
  hwx0_2 : ∀ i : grid0.Coords, EltTy.bits .bf16 = 32 ∨ (Rect.block (s := S2x256x4) S1x256x4.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x1.size a ≤ S2x5636096x1.size a
  hwx0_3 : ∀ i : grid0.Coords, EltTy.bits .f32 = 32 ∨ (Rect.block (s := S2x5636096x1) S1x8192x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x4.size a ≤ S2x5636096x4.size a
  hwx0_4 : ∀ i : grid0.Coords, EltTy.bits .f32 = 32 ∨ (Rect.block (s := S2x5636096x4) S1x8192x4.size (cc0_transform_4 i) (hinb0_4 i)).WholeWords (EltTy.packing .f32)

variable [Facts₀]

def dot_S1024x256_S256x4_S1024x4_1_0_0_1_n_n : DotDims S1024x256 S256x4 S1024x4 where
  lhsContracting := [1]
  rhsContracting := [0]
  lhsNonContracting := [0]
  rhsNonContracting := [1]
  lhsBatch := []
  rhsBatch := []
  wf := dot_S1024x256_S256x4_S1024x4_1_0_0_1_n_n_wf

abbrev win0_0 : Pipeline.Window sig grid0 :=
  Pipeline.Window.ofSpec (Memref.whole main_v4) S1x8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x8192x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x5636096 : Shape := ⟨2, ![2, 5636096]⟩
abbrev S2x256x4 : Shape := ⟨3, ![2, 256, 4]⟩
abbrev S704512x1 : Shape := ⟨2, ![704512, 1]⟩
abbrev S2 : Shape := ⟨1, ![2]⟩
abbrev S_ : Shape := ⟨0, ![]⟩
abbrev S2x1 : Shape := ⟨2, ![2, 1]⟩
abbrev S11272192 : Shape := ⟨1, ![11272192]⟩
abbrev S512x4 : Shape := ⟨2, ![512, 4]⟩
abbrev S11272192x1 : Shape := ⟨2, ![11272192, 1]⟩
abbrev S1 : Shape := ⟨1, ![1]⟩
abbrev S1x1 : Shape := ⟨2, ![1, 1]⟩
abbrev S11272192x4 : Shape := ⟨2, ![11272192, 4]⟩
abbrev S704512x64 : Shape := ⟨2, ![704512, 64]⟩
abbrev S4096x11008 : Shape := ⟨2, ![4096, 11008]⟩

abbrev nBuf : Space → Nat
  | .hbm => 39
  | .vmem => 0
  | .smem => 0
  | _ => 0

abbrev bufTy : (tb : Table) → Fin (tcTables nBuf tb) → BufTy
  | .hbm, ⟨0, _⟩ => ⟨S2x5636096, .i32⟩
  | .hbm, ⟨1, _⟩ => ⟨S2x256x4, .f32⟩
  | .hbm, ⟨2, _⟩ => ⟨S704512x1, .f32⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i32⟩
  | .hbm, ⟨7, _⟩ => ⟨S2x1, .i32⟩
  | .hbm, ⟨8, _⟩ => ⟨S2x5636096, .i32⟩
  | .hbm, ⟨9, _⟩ => ⟨S2x5636096, .i32⟩
  | .hbm, ⟨10, _⟩ => ⟨S11272192, .i32⟩
  | .hbm, ⟨11, _⟩ => ⟨S512x4, .f32⟩
  | .hbm, ⟨12, _⟩ => ⟨S_, .i32⟩
  | .hbm, ⟨13, _⟩ => ⟨S11272192, .i32⟩
  | .hbm, ⟨14, _⟩ => ⟨S11272192, .i1⟩
  | .hbm, ⟨15, _⟩ => ⟨S_, .i32⟩
  | .hbm, ⟨16, _⟩ => ⟨S11272192, .i32⟩
  | .hbm, ⟨17, _⟩ => ⟨S11272192, .i32⟩
  | .hbm, ⟨18, _⟩ => ⟨S11272192, .i32⟩
  | .hbm, ⟨19, _⟩ => ⟨S11272192x1, .i32⟩
  | .hbm, ⟨20, _⟩ => ⟨S1, .i32⟩
  | .hbm, ⟨21, _⟩ => ⟨S_, .i32⟩
  | .hbm, ⟨22, _⟩ => ⟨S11272192x1, .i32⟩
  | .hbm, ⟨23, _⟩ => ⟨S11272192x1, .i1⟩
  | .hbm, ⟨24, _⟩ => ⟨S1x1, .i32⟩
  | .hbm, ⟨25, _⟩ => ⟨S11272192x1, .i32⟩
  | .hbm, ⟨26, _⟩ => ⟨S11272192x1, .i1⟩
  | .hbm, ⟨27, _⟩ => ⟨S11272192x1, .i1⟩
  | .hbm, ⟨28, _⟩ => ⟨S_, .i1⟩
  | .hbm, ⟨29, _⟩ => ⟨S11272192, .i1⟩
  | .hbm, ⟨30, _⟩ => ⟨S11272192x4, .f32⟩
  | .hbm, ⟨31, _⟩ => ⟨S11272192x4, .i1⟩
  | .hbm, ⟨32, _⟩ => ⟨S_, .f32⟩
  | .hbm, ⟨33, _⟩ => ⟨S11272192x4, .f32⟩
  | .hbm, ⟨34, _⟩ => ⟨S11272192x4, .f32⟩
  | .hbm, ⟨35, _⟩ => ⟨S704512x64, .f32⟩
  | .hbm, ⟨36, _⟩ => ⟨S704512x64, .f32⟩
  | .hbm, ⟨37, _⟩ => ⟨S704512x64, .f32⟩
  | .hbm, ⟨38, _⟩ => ⟨S4096x11008, .f32⟩
  | _, _ => ⟨S2x5636096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S2x1_S2x5636096_0_1 : S2x1.BroadcastsInDim S2x5636096 (![0, 1] : Fin 2 → Fin S2x5636096.rank)
  shapeCasts_S2x5636096_S11272192 : S2x5636096.ShapeCasts S11272192
  shapeCasts_S2x256x4_S512x4 : S2x256x4.ShapeCasts S512x4
  bcast_S_S11272192 : S_.BroadcastsInDim S11272192 (![] : Fin 0 → Fin S11272192.rank)
  bcast_S11272192_S11272192x1_0 : S11272192.BroadcastsInDim S11272192x1 (![0] : Fin 1 → Fin S11272192x1.rank)
  bcast_S_S11272192x1 : S_.BroadcastsInDim S11272192x1 (![] : Fin 0 → Fin S11272192x1.rank)
  bcast_S1_S1x1_1 : S1.BroadcastsInDim S1x1 (![1] : Fin 1 → Fin S1x1.rank)
  bcast_S1x1_S11272192x1_0_1 : S1x1.BroadcastsInDim S11272192x1 (![0, 1] : Fin 2 → Fin S11272192x1.rank)
  reducesTo_S11272192x1_S11272192_d1 : S11272192x1.ReducesTo [1] S11272192
  h_S_ : 0 < S_.numel
  bcast_S11272192_S11272192x4_0 : S11272192.BroadcastsInDim S11272192x4 (![0] : Fin 1 → Fin S11272192x4.rank)
  bcast_S_S11272192x4 : S_.BroadcastsInDim S11272192x4 (![] : Fin 0 → Fin S11272192x4.rank)
  shapeCasts_S11272192x4_S704512x64 : S11272192x4.ShapeCasts S704512x64
  bcast_S704512x1_S704512x64_0_1 : S704512x1.BroadcastsInDim S704512x64 (![0, 1] : Fin 2 → Fin S704512x64.rank)
  shapeCasts_S704512x64_S4096x11008 : S704512x64.ShapeCasts S4096x11008
  gather_S512x4_S11272192x1_S11272192x4_1_0_n_n_0_1_14_wf : GatherDims.WF S512x4 S11272192x1 S11272192x4 [1] [0] [] [0] [] 1 ![1, 4]

variable [Facts₀]

def gather_S512x4_S11272192x1_S11272192x4_1_0_n_n_0_1_14 : GatherDims S512x4 S11272192x1 S11272192x4 where
  offsetDims := [1]
  collapsedSliceDims := [0]
  operandBatchingDims := []
  startIndicesBatchingDims := []
  startIndexMap := [0]
  indexVectorDim := 1
  sliceSizes := ![1, 4]
  wf := gather_S512x4_S11272192x1_S11272192x4_1_0_n_n_0_1_14_wf

class Facts : Prop extends Facts₀ where

variable [Facts]
-- ==== Proof.Spec.lean ====
/-
  The dequantisation both programs compute, as one function of the three argument arrays.

  A weight matrix of 4096 x 11008 numbers is stored as 2 x 5636096 codes, each naming one of 256 centroids of
  its codebook (a centroid is a vector of 4 numbers), and one scale per run of 64 consecutive numbers, that is
  per 16 consecutive vectors.  Laid out as (codebook c, vector r, component d) the weight is

      codebooks[c, codes[c, r], d] * scales[c * 352256 + r / 16, 0],

  and the result is that array re-read in row-major order as 4096 x 11008.
-/
import Idealize.ShloMosaic.PureOps.Ideal
import Idealize.ShloMosaic.Lib.ValueIdx

noncomputable section

namespace Cert.Spec

open Idealize.ShloMosaic Idealize.ShloMosaic.ValueIdx

abbrev SCodes : Shape := ⟨2, ![2, 5636096]⟩
abbrev SBooks : Shape := ⟨3, ![2, 256, 4]⟩
abbrev SScales : Shape := ⟨2, ![704512, 1]⟩
abbrev SVecs : Shape := ⟨3, ![2, 5636096, 4]⟩
abbrev SOut : Shape := ⟨2, ![4096, 11008]⟩

theorem casts_SVecs_SOut : SVecs.ShapeCasts SOut := by decide

/-- A code word read as a centroid number (the low byte; a code in range is its own centroid number). -/
def centroid (w : BitVec 32) : Fin 256 := ⟨w.toNat % 256, Nat.mod_lt _ (by decide)⟩

/-- A code word clamped, as a signed number, into 0..255. -/
def clamp (w : BitVec 32) : Fin 256 := ⟨(max 0 (min 255 w.toInt)).toNat, by omega⟩

/-- A code in range is left alone by the clamp. -/
theorem clamp_eq_centroid (w : BitVec 32) (h : w.toNat < 256) : clamp w = centroid w := by
  have e : w.toInt = (w.toNat : Int) := BitVec.toInt_eq_toNat_of_lt (by omega)
  apply Fin.ext
  show (max 0 (min 255 w.toInt)).toNat = w.toNat % 256
  rw [e, Nat.mod_eq_of_lt h]
  omega

/-- The scale's row for vector `r` of codebook `c`: sixteen consecutive vectors share one. -/
def scaleRow (c : Fin 2) (r : Fin 5636096) : Fin 704512 := ⟨c.val * 352256 + r.val / 16, by omega⟩

/-- One dequantised number: component `d` of the centroid that code `(c, r)` names, times the vector's scale. -/
def weightAt (codes : IVec SCodes 32) (books : FVec Ideal SBooks .f32) (scales : FVec Ideal SScales .f32)
    (c : Fin 2) (r : Fin 5636096) (d : Fin 4) : EReal :=
  books (ix3 c (centroid (codes (ix2 c r))) d) * scales (ix2 (scaleRow c r) (0 : Fin 1))

/-- The dequantised weights laid out (codebook, vector, component). -/
def weights (codes : IVec SCodes 32) (books : FVec Ideal SBooks .f32) (scales : FVec Ideal SScales .f32) :
    FVec Ideal SVecs .f32 :=
  fun j => weightAt codes books scales (j 0) (j 1) (j 2)

/-- The result: the weights re-read in row-major order as the 4096 x 11008 matrix. -/
def result (codes : IVec SCodes 32) (books : FVec Ideal SBooks .f32) (scales : FVec Ideal SScales .f32) :
    FVec Ideal SOut .f32 :=
  shapeCast SOut (weights codes books scales) casts_SVecs_SOut

theorem weights_ix3 (codes : IVec SCodes 32) (books : FVec Ideal SBooks .f32) (scales : FVec Ideal SScales .f32)
    (c : Fin 2) (r : Fin 5636096) (d : Fin 4) :
    weights codes books scales (ix3 c r d) = weightAt codes books scales c r d := rfl

/-- A code in range: between 0 and 255 as a signed word. -/
def InRange (codes : IVec SCodes 32) : Prop := ∀ i, (codes i).toNat < 256

/-- Every entry a real number. -/
def Finite {s : Shape} (x : FVec Ideal s .f32) : Prop := ∀ i, ∃ a : ℝ, x i = (a : EReal)

end Cert.Spec

end
-- ==== Proof.PreFacts.lean ====
/-
  Reading the precondition.

  The precondition is one truth value: the conjunction of three "for all entries" statements,
    |codebooks| < +∞ everywhere,   |scales| < +∞ everywhere,   0 ≤ codes < 256 everywhere (as signed words),
  each "for all" a fold of the entrywise truth values by `and` starting from true.  If the conjunction is true then
  each fold is true, a fold by `and` that is true met only true entries, and entry by entry:
    * an extended real x with max x (-x) < ⊤ is neither ⊤ nor ⊥, hence a real number;
    * a 32-bit word w with 0 ≤ w and w < 256 as signed numbers has its sign bit clear, so its unsigned value is its
      signed value and lies below 256.
-/
import proofs.«401889_j62148176773135_3_alg».proof.Proof.Gen.Pre_finite_inputs
import proofs.«401889_j62148176773135_3_alg».proof.Proof.Spec
import Idealize.ShloMosaic.Lib.ReduceAll
import Idealize.ShloMosaic.Lib.StableHlo.Predicate
import Idealize.ShloMosaic.Lib.ValueIdx

namespace Cert.PreFacts

open Idealize.ShloMosaic

/-- An extended real whose absolute value `max x (-x)` lies strictly below +∞ is a real number: at `⊤` and at `⊥`
    the absolute value is `⊤`, which is not below itself.  (The word 0x7F800000 denotes +∞.) -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

/-- A 32-bit word that, read as a signed number, is at least 0 and below 256 is below 256 read unsigned: were its sign
    bit set its signed value would be negative. -/
theorem toNat_lt_of_range (w : BitVec 32) (h0 : IntOp.cmpi .sge w 0#32 = 1#1) (h1 : IntOp.cmpi .slt w 256#32 = 1#1) :
    w.toNat < 256 := by
  simp only [IntOp.cmpi, StableHlo.Predicate.ofBool_eq_one_iff, BitVec.sle, BitVec.slt, decide_eq_true_eq] at h0 h1
  have e0 : (0#32 : BitVec 32).toInt = 0 := by decide
  have e256 : (256#32 : BitVec 32).toInt = 256 := by decide
  rw [e0] at h0
  rw [e256] at h1
  rw [BitVec.toInt_eq_toNat_cond] at h0 h1
  split at h0 <;> omega

/-- The shape of a single truth value has exactly one index. -/
instance : Subsingleton Cert.Pre_finite_inputs.S_.Idx := ⟨fun a b => funext fun d => d.elim0⟩

/-- The precondition, read: every code lies in 0..255 and every codebook entry and every scale is a real number. -/
theorem of_pre [Cert.Pre_finite_inputs.Facts] (codes : IVec Cert.Spec.SCodes 32) (books : FVec Ideal Cert.Spec.SBooks .f32)
    (scales : FVec Ideal Cert.Spec.SScales .f32)
    (h : Cert.Pre_finite_inputs.fn (F := Ideal) codes books scales = fun _ => 1#1) :
    Cert.Spec.InRange codes ∧ Cert.Spec.Finite books ∧ Cert.Spec.Finite scales := by
  -- the one truth value, as the conjunction (books ∧ scales) ∧ codes of three folds by `and`
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  -- a fold by `and` over all entries that is true met a true entry at every index
  have hb := Host.reduce_andi_all _ _ _ _ _ h1
  have hs := Host.reduce_andi_all _ _ _ _ _ h2
  have hc := Host.reduce_andi_all _ _ _ _ _ h3
  refine ⟨fun i => ?_, fun i => ?_, fun i => ?_⟩
  · -- the entry for the codes is itself a conjunction: 0 ≤ code and code < 256
    obtain ⟨hge, hlt⟩ := IntOp.andi_eq_one.1 (hc i)
    exact toNat_lt_of_range (codes i) hge hlt
  · exact real_of_abs_lt_inf (books i) (hb i)
  · exact real_of_abs_lt_inf (scales i) (hs i)

end Cert.PreFacts
-- ==== Proof.Payload.lean ====
/-
  The kernel's arithmetic at one entry.

  The body clamps each code of a chunk of 1024 into 0..255, builds the 1024 x 256 one-hot matrix whose row r has its
  single 1 in the column of row r's clamped code, multiplies it against the two 256 x 4 codebook blocks, adds the two
  products and multiplies row r by its scale.  A product of a one-hot row with a matrix selects one row of the matrix:
  on the extended reals 0 * x = 0 and 1 * x = x for every x, so of the 256 terms of the contraction one survives.
  Hence, at (r, d), the value is

      (first block[clamp(code r), d] + second block[clamp(code r), d]) * scale r

  with no condition on the blocks' entries.
-/
import proofs.«401889_j62148176773135_3_alg».proof.Proof.Gen.KernelIdeal.Skeleton
import proofs.«401889_j62148176773135_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx
open Cert.KernelIdeal Cert.KernelIdeal.Gen
open scoped BigOperators

/-! ## Words: the signed clamp into 0..255 and the comparison with a centroid number -/

/-- The clamp as the kernel writes it: the signed maximum with 0, then the signed minimum with 255. -/
def clampWord (w : BitVec 32) : BitVec 32 := IntOp.minsi 255#32 (IntOp.maxsi 0#32 w)

/-- Read as a natural number, the clamped word is the specification's clamp. -/
theorem clampWord_toNat (w : BitVec 32) : (clampWord w).toNat = (Cert.Spec.clamp w).val := by
  show (IntOp.minsi 255#32 (IntOp.maxsi 0#32 w)).toNat = (max 0 (min 255 w.toInt)).toNat
  have hw : w.toNat < 2 ^ 32 := w.isLt
  have e := BitVec.toInt_eq_toNat_cond w
  have z : (0#32 : BitVec 32).toInt = 0 := by decide
  have t : (255#32 : BitVec 32).toInt = 255 := by decide
  unfold IntOp.minsi IntOp.maxsi
  by_cases h0 : w.toInt < 0
  · have s0 : w.slt 0#32 = true := by rw [BitVec.slt_iff_toInt_lt, z]; exact h0
    rw [if_pos s0]
    have s1 : ¬ ((255#32 : BitVec 32).slt 0#32 = true) := by decide
    rw [if_neg s1]
    show 0 = _
    omega
  · have s0 : ¬ (w.slt 0#32 = true) := by rw [BitVec.slt_iff_toInt_lt, z]; exact h0
    rw [if_neg s0]
    by_cases h1 : 255 < w.toInt
    · have s1 : (255#32 : BitVec 32).slt w = true := by rw [BitVec.slt_iff_toInt_lt, t]; exact h1
      rw [if_pos s1]
      show 255 = _
      omega
    · have s1 : ¬ ((255#32 : BitVec 32).slt w = true) := by rw [BitVec.slt_iff_toInt_lt, t]; exact h1
      rw [if_neg s1]
      split at e <;> omega

/-- A centroid number, as a word, is the clamped word exactly when it is the specification's clamp. -/
theorem ofNat_eq_clampWord_iff (w : BitVec 32) (k : Fin 256) :
    BitVec.ofNat 32 k.val = clampWord w ↔ k = Cert.Spec.clamp w := by
  have hc := clampWord_toNat w
  have hk : k.val < 256 := k.isLt
  constructor
  · intro h
    apply Fin.ext
    have h' := congrArg BitVec.toNat h
    rw [BitVec.toNat_ofNat, hc] at h'
    omega
  · intro h
    apply BitVec.eq_of_toNat_eq
    rw [BitVec.toNat_ofNat, hc, h]
    have := (Cert.Spec.clamp w).isLt
    omega

/-- An equality test of two words, widened to 32 bits and converted signed, is 1 when they are equal and 0 otherwise. -/
theorem sitofp_eq_bit (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · rw [if_pos h]
    have e : IntOp.cmpi .eq x y = 1#1 := by unfold IntOp.cmpi; simp [h]
    rw [e]
    have e1 : ((1#1 : BitVec 1).setWidth 32).toInt = 1 := by decide
    rw [e1]; norm_cast
  · rw [if_neg h]
    have hb : (x == y) = false := beq_eq_false_iff_ne.mpr h
    have e : IntOp.cmpi .eq x y = 0#1 := by unfold IntOp.cmpi; simp [hb]
    rw [e]
    have e0 : ((0#1 : BitVec 1).setWidth 32).toInt = 0 := by decide
    rw [e0]; norm_cast

/-! ## The one-hot matrix of a chunk's clamped codes -/

/-- Row r of the one-hot matrix has a 1 in the column of row r's clamped code and 0 elsewhere: the column numbers
    (an iota along axis 1) compared for equality with the clamped code broadcast along that axis, the bit widened
    to a word and converted to a float. -/
def oneHot (v11 : Vec Ideal S1x1024x1 .i32) : FVec Ideal S1024x256 .bf16 :=
  truncf .bf16 (sitofp .f32 (extui 32 (cmpi .eq (iota .tc S1024x256 32 [1] iota_S1024x256_d1_w32)
    (broadcastTo S1024x256 (minsi (broadcast S1024x1 255#32) (maxsi (broadcast S1024x1 0#32)
      (shapeCast S1024x1 v11 shapeCasts_S1x1024x1_S1024x1))) broadcasts_S1024x1_S1024x256)) natLt_1_32)) bitsLt_bf16_f32

/-- A column vector broadcast along 256 columns reads, at (r, k), its entry of row r. -/
theorem broadcastTo_col256_apply {α : Type} (x : S1024x1.Idx → α) (h : S1024x1.Broadcasts S1024x256)
    (r : Fin 1024) (k : Fin 256) : broadcastTo S1024x256 x h (ix2 r k) = x (ix2 r (0 : Fin 1)) :=
  broadcastTo_apply x h _ _ fun a => match a with | ⟨0, _⟩ => rfl | ⟨1, _⟩ => rfl

/-- A column vector broadcast along 4 columns reads, at (r, d), its entry of row r. -/
theorem broadcastTo_col4_apply {α : Type} (x : S1024x1.Idx → α) (h : S1024x1.Broadcasts S1024x4)
    (r : Fin 1024) (d : Fin 4) : broadcastTo S1024x4 x h (ix2 r d) = x (ix2 r (0 : Fin 1)) :=
  broadcastTo_apply x h _ _ fun a => match a with | ⟨0, _⟩ => rfl | ⟨1, _⟩ => rfl

/-- The iota along axis 1 reads, at (r, k), the word k. -/
theorem iota_col_apply (h : S1024x256.Iotas .tc 32 [1]) (r : Fin 1024) (k : Fin 256) :
    iota .tc S1024x256 32 [1] h (ix2 r k) = BitVec.ofNat 32 k.val :=
  iota_single_apply .tc S1024x256 32 1 h (ix2 r k)

/-- The one-hot matrix at (r, k): 1 when k is the clamp of row r's code, 0 otherwise. -/
theorem oneHot_apply (v11 : Vec Ideal S1x1024x1 .i32) (r : Fin 1024) (k : Fin 256) :
    oneHot v11 (ix2 r k) = if k = Cert.Spec.clamp (v11 (ix3 (0 : Fin 1) r (0 : Fin 1))) then 1 else 0 := by
  have hb := broadcastTo_col256_apply (minsi (broadcast S1024x1 255#32) (maxsi (broadcast S1024x1 0#32)
      (shapeCast S1024x1 v11 shapeCasts_S1x1024x1_S1024x1))) broadcasts_S1024x1_S1024x256 r k
  have hs := shapeCast_1ab_ab_apply v11 shapeCasts_S1x1024x1_S1024x1 r (0 : Fin 1)
  have hi := iota_col_apply iota_S1024x256_d1_w32 r k
  show (FloatOps.sitofp (F := Ideal) .f32 ((IntOp.cmpi .eq (iota .tc S1024x256 32 [1] iota_S1024x256_d1_w32 (ix2 r k))
    (broadcastTo S1024x256 (minsi (broadcast S1024x1 255#32) (maxsi (broadcast S1024x1 0#32)
      (shapeCast S1024x1 v11 shapeCasts_S1x1024x1_S1024x1))) broadcasts_S1024x1_S1024x256 (ix2 r k))).setWidth 32) : EReal) = _
  rw [hi, hb]
  show (FloatOps.sitofp (F := Ideal) .f32 ((IntOp.cmpi .eq (BitVec.ofNat 32 k.val)
    (IntOp.minsi 255#32 (IntOp.maxsi 0#32 (shapeCast S1024x1 v11 shapeCasts_S1x1024x1_S1024x1 (ix2 r (0 : Fin 1)))))).setWidth 32) : EReal) = _
  rw [hs, sitofp_eq_bit]
  exact if_congr (ofNat_eq_clampWord_iff _ k) rfl rfl

/-! ## The matrix product at an index

The product contracts axis 1 of the 1024 x 256 operand with axis 0 of the 256 x 4 operand. At output index (r, d) and
contraction position k the left operand is read at (r, k) and the right operand at (k, d): one fact per operand axis. -/

theorem lhs_dot_0 (j : S1024x4.Idx) (k : dot_S1024x256_S256x4_S1024x4_1_0_0_1_n_n.contr.Idx) :
    (dot_S1024x256_S256x4_S1024x4_1_0_0_1_n_n.lhsIdx j k 0).val = (j 0).val := by
  simp [DotDims.lhsIdx, dot_S1024x256_S256x4_S1024x4_1_0_0_1_n_n]; rfl

theorem lhs_dot_1 (j : S1024x4.Idx) (k : dot_S1024x256_S256x4_S1024x4_1_0_0_1_n_n.contr.Idx) :
    (dot_S1024x256_S256x4_S1024x4_1_0_0_1_n_n.lhsIdx j k 1).val = (k ⟨0, Nat.one_pos⟩).val :=
  dot_S1024x256_S256x4_S1024x4_1_0_0_1_n_n.lhsIdx_val_of_single rfl j k

theorem rhs_dot_0 (j : S1024x4.Idx) (k : dot_S1024x256_S256x4_S1024x4_1_0_0_1_n_n.contr.Idx) :
    (dot_S1024x256_S256x4_S1024x4_1_0_0_1_n_n.rhsIdx j k 0).val = (k ⟨0, Nat.one_pos⟩).val :=
  dot_S1024x256_S256x4_S1024x4_1_0_0_1_n_n.rhsIdx_val_of_single rfl j k

theorem rhs_dot_1 (j : S1024x4.Idx) (k : dot_S1024x256_S256x4_S1024x4_1_0_0_1_n_n.contr.Idx) :
    (dot_S1024x256_S256x4_S1024x4_1_0_0_1_n_n.rhsIdx j k 1).val = (j 1).val := by
  simp [DotDims.rhsIdx, dot_S1024x256_S256x4_S1024x4_1_0_0_1_n_n]; rfl

/-- The product into the zero accumulator, read at (r, d): the sum over the 256 contracted positions. -/
theorem matmul_apply_ix (A : FVec Ideal S1024x256 .bf16) (B : FVec Ideal S256x4 .bf16) (r : Fin 1024) (d : Fin 4) :
    matmul (F := Ideal) dot_S1024x256_S256x4_S1024x4_1_0_0_1_n_n none A B
        (constant (F := Ideal) S1024x4 .f32 0x00000000#32) (ix2 r d)
      = ∑ k : Fin 256, A (ix2 r k) * B (ix2 k d) := by
  show FloatOps.matmul dot_S1024x256_S256x4_S1024x4_1_0_0_1_n_n none A B
    (constant (F := Ideal) S1024x4 .f32 0x00000000#32) (ix2 r d) = _
  rw [Ideal.matmul_constant_zero_apply,
    ← Equiv.sum_comp (contrEquiv1 dot_S1024x256_S256x4_S1024x4_1_0_0_1_n_n 256 rfl rfl).symm]
  refine Finset.sum_congr rfl fun c _ => ?_
  have c2 := contrEquiv1_symm_val dot_S1024x256_S256x4_S1024x4_1_0_0_1_n_n 256 rfl rfl c
  have l2 : dot_S1024x256_S256x4_S1024x4_1_0_0_1_n_n.lhsIdx (ix2 r d)
      ((contrEquiv1 dot_S1024x256_S256x4_S1024x4_1_0_0_1_n_n 256 rfl rfl).symm c) = ix2 r c := by
    funext ax; apply Fin.ext
    match ax with
    | ⟨0, _⟩ => exact lhs_dot_0 _ _
    | ⟨1, _⟩ => exact (lhs_dot_1 _ _).trans c2
  have r2 : dot_S1024x256_S256x4_S1024x4_1_0_0_1_n_n.rhsIdx (ix2 r d)
      ((contrEquiv1 dot_S1024x256_S256x4_S1024x4_1_0_0_1_n_n 256 rfl rfl).symm c) = ix2 c d := by
    funext ax; apply Fin.ext
    match ax with
    | ⟨0, _⟩ => exact (rhs_dot_0 _ _).trans c2
    | ⟨1, _⟩ => exact rhs_dot_1 _ _
  rw [l2, r2]

/-- Against the one-hot matrix the sum has one term that is not zero: the product selects row clamp(code) of the
    right operand. On the extended reals 0 * x = 0 and 1 * x = x for every x, so nothing is asked of the entries. -/
theorem matmul_oneHot_apply (v11 : Vec Ideal S1x1024x1 .i32) (B : FVec Ideal S256x4 .bf16) (r : Fin 1024) (d : Fin 4) :
    matmul (F := Ideal) dot_S1024x256_S256x4_S1024x4_1_0_0_1_n_n none (oneHot v11) B
        (constant (F := Ideal) S1024x4 .f32 0x00000000#32) (ix2 r d)
      = B (ix2 (Cert.Spec.clamp (v11 (ix3 (0 : Fin 1) r (0 : Fin 1)))) d) := by
  rw [matmul_apply_ix, Finset.sum_eq_single (Cert.Spec.clamp (v11 (ix3 (0 : Fin 1) r (0 : Fin 1))))]
  · rw [oneHot_apply, if_pos rfl]; exact one_mul _
  · intro k _ hk
    rw [oneHot_apply, if_neg hk]; exact zero_mul _
  · intro h; exact absurd (Finset.mem_univ _) h

/-! ## The payload -/

/-- The payload with the one-hot matrix named. -/
theorem k0_pay1_eq (v0 v2 : Vec Ideal S1x256x4 .bf16) (v11 : Vec Ideal S1x1024x1 .i32) (v18 : Vec Ideal S1x1024x1 .f32) :
    k0_pay1 (F := Ideal) v0 v2 v11 v18 = shapeCast S1x1024x4 (mulf (addf
      (matmul (F := Ideal) dot_S1024x256_S256x4_S1024x4_1_0_0_1_n_n none (oneHot v11)
        (shapeCast S256x4 v0 shapeCasts_S1x256x4_S256x4 : FVec Ideal S256x4 .bf16) (constant (F := Ideal) S1024x4 .f32 0x00000000#32))
      (matmul (F := Ideal) dot_S1024x256_S256x4_S1024x4_1_0_0_1_n_n none (oneHot v11)
        (shapeCast S256x4 v2 shapeCasts_S1x256x4_S256x4 : FVec Ideal S256x4 .bf16) (constant (F := Ideal) S1024x4 .f32 0x00000000#32)))
      (broadcastTo S1024x4 (shapeCast S1024x1 v18 shapeCasts_S1x1024x1_S1024x1) broadcasts_S1024x1_S1024x4))
      shapeCasts_S1024x4_S1x1024x4 := rfl

/-- THE PAYLOAD AT AN INDEX: component d of the centroid that row r's clamped code names, in the first codebook block
    plus in the second, times row r's scale. -/
theorem k0_pay1_apply (v0 v2 : Vec Ideal Cert.KernelIdeal.S1x256x4 .bf16) (v11 : Vec Ideal Cert.KernelIdeal.S1x1024x1 .i32) (v18 : Vec Ideal Cert.KernelIdeal.S1x1024x1 .f32) (r : Fin 1024) (d : Fin 4) :
    Cert.KernelIdeal.Gen.k0_pay1 (F := Ideal) v0 v2 v11 v18 (ix3 (0 : Fin 1) r d)
      = (v0 (ix3 (0 : Fin 1) (Cert.Spec.clamp (v11 (ix3 (0 : Fin 1) r (0 : Fin 1)))) d) + v2 (ix3 (0 : Fin 1) (Cert.Spec.clamp (v11 (ix3 (0 : Fin 1) r (0 : Fin 1)))) d)) * v18 (ix3 (0 : Fin 1) r (0 : Fin 1)) := by
  rw [k0_pay1_eq]
  refine (shapeCast_ab_1ab_apply _ shapeCasts_S1024x4_S1x1024x4 (0 : Fin 1) r d).trans ?_
  refine (mulf_apply _ _ _).trans ?_
  refine congrArg₂ (· * ·) ?_ ?_
  · refine (addf_apply _ _ _).trans ?_
    refine congrArg₂ (· + ·) ?_ ?_
    · exact (matmul_oneHot_apply v11 _ r d).trans (shapeCast_1ab_ab_apply v0 _ _ d)
    · exact (matmul_oneHot_apply v11 _ r d).trans (shapeCast_1ab_ab_apply v2 _ _ d)
  · exact (broadcastTo_col4_apply _ _ r d).trans (shapeCast_1ab_ab_apply v18 _ r (0 : Fin 1))

end Cert.KernelIdeal.PayloadValue

end
-- ==== Proof.BodyValue.lean ====
/-
  What the kernel body leaves in its output block.

  The body reads the two codebook halves whole, then runs eight trips; trip k reads rows 1024 k … 1024 k + 1023
  of the codes block and of the scales block and stores the payload of those two chunks into the same rows of the
  1 x 8192 x 4 output block.  The eight stored rectangles tile the block, each is a block of ONE function of the
  output index (row q is computed from chunk q / 1024 at local row q % 1024), so the block reads back as that
  function; with the payload's value at an index (a hypothesis here) row q, component d is

      (hi[clamp(codes[q]), d] + lo[clamp(codes[q]), d]) * scales[q].
-/
import proofs.«401889_j62148176773135_3_alg».proof.Proof.Gen.KernelIdeal.Frame
import proofs.«401889_j62148176773135_3_alg».proof.Proof.Spec
import Idealize.ShloMosaic.Lib.Pipeline.Value
import Idealize.ShloMosaic.Lib.Pipeline.FrameBody
import Idealize.ShloMosaic.Lib.ValueIdx
import Idealize.ShloMosaic.PureOps.Ideal

noncomputable section

namespace Cert.KernelIdeal.BodyValue

open Idealize.ShloMosaic Idealize.ShloMosaic.TcCoe
open Idealize.SL Idealize.SL.Sem
open Idealize.ShloMosaic.ValueIdx

variable {F : FTy → Type} [FloatOps F]

/-! ## The loop's trips and the rectangles of a trip -/

/-- The loop runs eight trips. -/
theorem trips_eq : k0_t1_loop.trips = 8 := by decide

/-- Trip `k` reads rows `1024 k …` of a 1 x 8192 x 1 block, -/
abbrev rowsRect (k : Fin k0_t1_loop.trips) : Rect S1x8192x1 :=
  Rect.unit (s := S1x8192x1) (k0_off1 k) S1x1024x1.size (Gen.k0_off1_inb k)

/-- and writes the same rows of the 1 x 8192 x 4 block. -/
abbrev outRect (k : Fin k0_t1_loop.trips) : Rect S1x8192x4 :=
  Rect.unit (s := S1x8192x4) (k0_off2 k) S1x1024x4.size (Gen.k0_off2_inb k)

/-- The trip that writes row `q`. -/
def tripOf (q : Fin 8192) : Fin k0_t1_loop.trips := ⟨q.val / 1024, by rw [trips_eq]; omega⟩

/-- Row `q`'s place inside its trip's chunk. -/
def rowIn (q : Fin 8192) : Fin 1024 := ⟨q.val % 1024, Nat.mod_lt _ (by decide)⟩

/-- THE ONE FUNCTION of the output index every stored rectangle is a block of: row `q`, component `d` is the
    payload of chunk `q / 1024` of the codes and of the scales, at local row `q % 1024`. -/
def blockFn (v0 v2 : Vec F S1x256x4 .bf16) (x0 : Vec F S1x8192x1 .i32) (x3 : Vec F S1x8192x1 .f32) :
    S1x8192x4.Idx → Elt F .f32 :=
  fun y => Gen.k0_pay1 v0 v2 (View.ld x0 (rowsRect (tripOf (y 1)))) (View.ld x3 (rowsRect (tripOf (y 1))))
    (ix3 (0 : Fin 1) (rowIn (y 1)) (y 2))

/-! ## One trip's piece -/

/-- What one trip stores: ONE piece, the payload of the two chunks it loads, at the trip's rows (by unfolding the trip's definition). -/
theorem tripL_eq (𝒱 : Variants) (c : Dev nD) (bd : Option 𝒱.V) (i : grid0.Coords) (arg2 : Memref sig .tc .vmem S1x8192x1 .i32) (harg2 : arg2.IsWhole) (arg3 : Memref sig .tc .vmem S1x256x4 .bf16) (harg3 : arg3.IsWhole) (arg4 : Memref sig .tc .vmem S1x256x4 .bf16) (harg4 : arg4.IsWhole) (arg5 : Memref sig .tc .vmem S1x8192x1 .f32) (harg5 : arg5.IsWhole) (arg6 : Memref sig .tc .vmem S1x8192x4 .f32) (harg6 : arg6.IsWhole)
    (v0 v2 : Vec F S1x256x4 .bf16) (X_arg2 : BufTy.Contents (Elt F) arg2.view.ty) (X_arg5 : BufTy.Contents (Elt F) arg5.view.ty)
    (k : Fin k0_t1_loop.trips) :
    Gen.tripL_k0_t1 (F := F) 𝒱 c bd i arg2 harg2 arg3 harg3 arg4 harg4 arg5 harg5 arg6 harg6 v0 v2 X_arg2 X_arg5 k
      = [⟨outRect k, Gen.k0_pay1 v0 v2 (View.ld (arg2.view.read (Elt F) X_arg2) (rowsRect k))
            (View.ld (arg5.view.read (Elt F) X_arg5) (rowsRect k))⟩] := by
  unfold Gen.tripL_k0_t1 Gen.trip_k0_t1
  rfl

/-! ## Every stored rectangle is a block of the one function -/

/-- A trip's rows, in closed form. -/
theorem outRect_emb_row (k : Fin k0_t1_loop.trips) (x : (outRect k).shape.Idx) :
    ((outRect k).emb x 1).val = 1024 * k.val + (x 1).val := by
  rw [Rect.emb_apply]
  show k0_off2 k 1 + 1 * (x 1).val = _
  rw [Gen.k0_off2_eq k]
  show 1024 * k.val + 1 * (x 1).val = _
  omega

theorem outRect_emb_col (k : Fin k0_t1_loop.trips) (x : (outRect k).shape.Idx) :
    ((outRect k).emb x 2).val = (x 2).val := by
  rw [Rect.emb_apply]
  show k0_off2 k 2 + 1 * (x 2).val = _
  rw [Gen.k0_off2_eq k]
  show 0 + 1 * (x 2).val = _
  omega

/-- Trip `k`'s payload is the block of `blockFn` at trip `k`'s rectangle. -/
theorem trip_piece (v0 v2 : Vec F S1x256x4 .bf16) (x0 : Vec F S1x8192x1 .i32) (x3 : Vec F S1x8192x1 .f32)
    (k : Fin k0_t1_loop.trips) (x : S1x1024x4.Idx) :
    Gen.k0_pay1 v0 v2 (View.ld x0 (rowsRect k)) (View.ld x3 (rowsRect k)) x
      = blockFn v0 v2 x0 x3 ((outRect k).emb x) := by
  have hx1 : (x 1).val < 1024 := (x 1).isLt
  have hk : k.val < 8 := Nat.lt_of_lt_of_le k.isLt Gen.k0_t1_abs.2.1
  have hrow := outRect_emb_row k x
  have hcol := outRect_emb_col k x
  have h1 : tripOf ((outRect k).emb x 1) = k := Fin.ext (by show ((outRect k).emb x 1).val / 1024 = k.val; rw [hrow]; omega)
  have h2 : rowIn ((outRect k).emb x 1) = x 1 := Fin.ext (by show ((outRect k).emb x 1).val % 1024 = (x 1).val; rw [hrow]; omega)
  have h3 : ((outRect k).emb x 2 : Fin 4) = x 2 := Fin.ext hcol
  have hx : x = ix3 (0 : Fin 1) (x 1) (x 2) := by
    funext a
    match a with
    | ⟨0, _⟩ => exact Subsingleton.elim (α := Fin 1) _ _
    | ⟨1, _⟩ => rfl
    | ⟨2, _⟩ => rfl
  unfold blockFn
  rw [h1, h2, h3]
  exact congrArg (Gen.k0_pay1 v0 v2 (View.ld x0 (rowsRect k)) (View.ld x3 (rowsRect k))) hx

/-- The pieces of the trips before `n` are all blocks of `blockFn`: by induction over the trips. -/
theorem pb_pieces (𝒱 : Variants) (c : Dev nD) (bd : Option 𝒱.V) (i : grid0.Coords) (arg2 : Memref sig .tc .vmem S1x8192x1 .i32) (harg2 : arg2.IsWhole) (arg3 : Memref sig .tc .vmem S1x256x4 .bf16) (harg3 : arg3.IsWhole) (arg4 : Memref sig .tc .vmem S1x256x4 .bf16) (harg4 : arg4.IsWhole) (arg5 : Memref sig .tc .vmem S1x8192x1 .f32) (harg5 : arg5.IsWhole) (arg6 : Memref sig .tc .vmem S1x8192x4 .f32) (harg6 : arg6.IsWhole)
    (v0 v2 : Vec F S1x256x4 .bf16) (x0 : Vec F S1x8192x1 .i32) (x3 : Vec F S1x8192x1 .f32) :
    ∀ n : ℕ, n ≤ k0_t1_loop.trips →
      ∀ p ∈ Gen.pb_k0_t1 (F := F) 𝒱 c bd i arg2 harg2 arg3 harg3 arg4 harg4 arg5 harg5 arg6 harg6 v0 v2 (harg2.unread x0) (harg5.unread x3) n,
        ∀ x : p.1.shape.Idx, p.2 x = blockFn v0 v2 x0 x3 (p.1.emb x)
  | 0, _ => by
    intro p hp
    rw [Gen.pb_k0_t1.eq_1] at hp
    exact absurd hp List.not_mem_nil
  | n + 1, hn => by
    intro p hp
    have hs := Gen.pb_k0_t1_succ (F := F) 𝒱 c bd i arg2 harg2 arg3 harg3 arg4 harg4 arg5 harg5 arg6 harg6 v0 v2 (harg2.unread x0) (harg5.unread x3) ⟨n, hn⟩
    rw [show (⟨n, hn⟩ : Fin k0_t1_loop.trips).val + 1 = n + 1 from rfl, tripL_eq, harg2.read_unread, harg5.read_unread] at hs
    rw [hs] at hp
    rcases List.mem_append.mp hp with h | h
    · obtain rfl := List.mem_singleton.mp h
      exact fun x => trip_piece v0 v2 x0 x3 ⟨n, hn⟩ x
    · exact pb_pieces 𝒱 c bd i arg2 harg2 arg3 harg3 arg4 harg4 arg5 harg5 arg6 harg6 v0 v2 x0 x3 n (Nat.le_of_succ_le hn) p h

/-! ## The run -/

theorem zero3 : (![0, 0, 0] : Fin 3 → ℕ) = fun _ => 0 := by
  funext a; fin_cases a <;> rfl

/-- The run's pieces are those of the eight trips, the two codebook halves read whole. -/
theorem run_list (c : Dev nD) (i : grid0.Coords) (arg2 : Memref sig .tc .vmem S1x8192x1 .i32) (harg2 : arg2.IsWhole) (arg3 : Memref sig .tc .vmem S1x256x4 .bf16) (harg3 : arg3.IsWhole) (arg4 : Memref sig .tc .vmem S1x256x4 .bf16) (harg4 : arg4.IsWhole) (arg5 : Memref sig .tc .vmem S1x8192x1 .f32) (harg5 : arg5.IsWhole) (arg6 : Memref sig .tc .vmem S1x8192x4 .f32) (harg6 : arg6.IsWhole)
    (x0 : Vec F S1x8192x1 .i32) (x1 x2 : Vec F S1x256x4 .bf16) (x3 : Vec F S1x8192x1 .f32) :
    (Gen.kernelRun0_A (F := F) c i arg2 harg2 arg3 harg3 arg4 harg4 arg5 harg5 arg6 harg6 x0 x1 x2 x3).1
      = Gen.pb_k0_t1 (F := F) Variants.none c none i arg2 harg2 arg3 harg3 arg4 harg4 arg5 harg5 arg6 harg6 x1 x2 (harg2.unread x0) (harg5.unread x3) k0_t1_loop.trips := by
  unfold Gen.kernelRun0_A
  dsimp only
  simp only [View.readAt_eq_ld, harg3.read_unread, harg4.read_unread, View.ld_unit_zero (S := S1x256x4) zero3]

/-- So every piece the run found is a block of `blockFn`. -/
theorem run_pieces (c : Dev nD) (i : grid0.Coords) (arg2 : Memref sig .tc .vmem S1x8192x1 .i32) (harg2 : arg2.IsWhole) (arg3 : Memref sig .tc .vmem S1x256x4 .bf16) (harg3 : arg3.IsWhole) (arg4 : Memref sig .tc .vmem S1x256x4 .bf16) (harg4 : arg4.IsWhole) (arg5 : Memref sig .tc .vmem S1x8192x1 .f32) (harg5 : arg5.IsWhole) (arg6 : Memref sig .tc .vmem S1x8192x4 .f32) (harg6 : arg6.IsWhole)
    (x0 : Vec F S1x8192x1 .i32) (x1 x2 : Vec F S1x256x4 .bf16) (x3 : Vec F S1x8192x1 .f32) :
    ∀ p ∈ (Gen.kernelRun0_A (F := F) c i arg2 harg2 arg3 harg3 arg4 harg4 arg5 harg5 arg6 harg6 x0 x1 x2 x3).1,
      ∀ x : p.1.shape.Idx, p.2 x = blockFn x1 x2 x0 x3 (p.1.emb x) := by
  rw [run_list]
  exact pb_pieces Variants.none c none i arg2 harg2 arg3 harg3 arg4 harg4 arg5 harg5 arg6 harg6 x1 x2 x0 x3 k0_t1_loop.trips (Nat.le_refl _)

/-- What the body leaves, at any float model: the one function. -/
theorem out0_A_4_eq (c : Dev nD) (i : grid0.Coords) (arg2 : Memref sig .tc .vmem S1x8192x1 .i32) (harg2 : arg2.IsWhole) (arg3 : Memref sig .tc .vmem S1x256x4 .bf16) (harg3 : arg3.IsWhole) (arg4 : Memref sig .tc .vmem S1x256x4 .bf16) (harg4 : arg4.IsWhole) (arg5 : Memref sig .tc .vmem S1x8192x1 .f32) (harg5 : arg5.IsWhole) (arg6 : Memref sig .tc .vmem S1x8192x4 .f32) (harg6 : arg6.IsWhole)
    (x0 : Vec F S1x8192x1 .i32) (x1 x2 : Vec F S1x256x4 .bf16) (x3 : Vec F S1x8192x1 .f32) (y : S1x8192x4.Idx) :
    Gen.out0_A_4 (F := F) c i arg2 harg2 arg3 harg3 arg4 harg4 arg5 harg5 arg6 harg6 x0 x1 x2 x3 y = blockFn x1 x2 x0 x3 y := by
  unfold Gen.out0_A_4
  rw [View.read_writes_eq_canon _ _ _ (Gen.cover0_A_4 c i arg2 harg2 arg3 harg3 arg4 harg4 arg5 harg5 arg6 harg6 x0 x1 x2 x3)]
  exact View.canon_apply_of_pieces (blockFn x1 x2 x0 x3) _ (run_pieces c i arg2 harg2 arg3 harg3 arg4 harg4 arg5 harg5 arg6 harg6 x0 x1 x2 x3) y
    (Gen.cover0_A_4 c i arg2 harg2 arg3 harg3 arg4 harg4 arg5 harg5 arg6 harg6 x0 x1 x2 x3 y)

/-! ## At the extended reals, index by index -/

/-- A chunk load read at a local row: row `1024 (q / 1024) + q % 1024 = q` of the block. -/
theorem ld_rows_apply {e : EltTy} (x : Vec F S1x8192x1 e) (q : Fin 8192) :
    View.ld x (rowsRect (tripOf q)) (ix3 (0 : Fin 1) (rowIn q) (0 : Fin 1)) = x (ix3 (0 : Fin 1) q (0 : Fin 1)) := by
  show x ((rowsRect (tripOf q)).emb (ix3 (0 : Fin 1) (rowIn q) (0 : Fin 1))) = _
  congr 1
  funext a
  apply Fin.ext
  rw [Rect.emb_apply]
  show k0_off1 (tripOf q) a + 1 * _ = _
  rw [Gen.k0_off1_eq (tripOf q)]
  match a with
  | ⟨0, _⟩ => rfl
  | ⟨1, _⟩ =>
    show 1024 * (q.val / 1024) + 1 * (q.val % 1024) = q.val
    omega
  | ⟨2, _⟩ => rfl

/-- WHAT THE BODY LEAVES in its output block, at the extended reals: row `q`, component `d` is the sum of the two
    codebook halves at the clamped code of row `q`, times row `q`'s scale — given the payload's value at an index. -/
theorem out0_A_4_apply (c : Dev nD) (i : grid0.Coords) (arg2 : Memref sig .tc .vmem S1x8192x1 .i32) (harg2 : arg2.IsWhole) (arg3 : Memref sig .tc .vmem S1x256x4 .bf16) (harg3 : arg3.IsWhole) (arg4 : Memref sig .tc .vmem S1x256x4 .bf16) (harg4 : arg4.IsWhole) (arg5 : Memref sig .tc .vmem S1x8192x1 .f32) (harg5 : arg5.IsWhole) (arg6 : Memref sig .tc .vmem S1x8192x4 .f32) (harg6 : arg6.IsWhole)
    (x0 : Vec Ideal S1x8192x1 .i32) (x1 x2 : Vec Ideal S1x256x4 .bf16) (x3 : Vec Ideal S1x8192x1 .f32) (q : Fin 8192) (d : Fin 4)
    (hpay : ∀ (v0 v2 : Vec Ideal S1x256x4 .bf16) (v11 : Vec Ideal S1x1024x1 .i32) (v18 : Vec Ideal S1x1024x1 .f32) (r : Fin 1024) (d : Fin 4),
        Gen.k0_pay1 (F := Ideal) v0 v2 v11 v18 (ix3 (0 : Fin 1) r d)
          = (v0 (ix3 (0 : Fin 1) (Cert.Spec.clamp (v11 (ix3 (0 : Fin 1) r (0 : Fin 1)))) d) + v2 (ix3 (0 : Fin 1) (Cert.Spec.clamp (v11 (ix3 (0 : Fin 1) r (0 : Fin 1)))) d)) * v18 (ix3 (0 : Fin 1) r (0 : Fin 1))) :
    Gen.out0_A_4 (F := Ideal) c i arg2 harg2 arg3 harg3 arg4 harg4 arg5 harg5 arg6 harg6 x0 x1 x2 x3 (ix3 (0 : Fin 1) q d)
      = (x1 (ix3 (0 : Fin 1) (Cert.Spec.clamp (x0 (ix3 (0 : Fin 1) q (0 : Fin 1)))) d) + x2 (ix3 (0 : Fin 1) (Cert.Spec.clamp (x0 (ix3 (0 : Fin 1) q (0 : Fin 1)))) d)) * x3 (ix3 (0 : Fin 1) q (0 : Fin 1)) := by
  rw [out0_A_4_eq]
  show Gen.k0_pay1 (F := Ideal) x1 x2 (View.ld x0 (rowsRect (tripOf q))) (View.ld x3 (rowsRect (tripOf q))) (ix3 (0 : Fin 1) (rowIn q) d) = _
  rw [hpay, ld_rows_apply x0 q, ld_rows_apply x3 q]

end Cert.KernelIdeal.BodyValue

end
-- ==== Proof.KernelValue.lean ====
/-
  The idealized kernel's run, read as a value: its result array ends at the specification's function of the three
  argument arrays when every code lies in 0..255 and every codebook entry is a real number.

  The host lines before the region hand the kernel the codes as a column, the codebooks twice — as they are (hi) and
  as themselves minus themselves (lo), the format changes being the identity on the extended reals —, and each
  scale repeated for the sixteen vectors that share it.  Grid point t works on codebook t / 688 and on the 8192
  vectors from (t % 688) * 8192 on; row q of what it writes back is, by the body's value,
      (hi[clamp code] + lo[clamp code]) * scale,
  which for a code in range and a finite codebook is the centroid's component times the scale: block t of the
  dequantised weights.  The blocks tile the output array, and the one host line after the region re-reads it in
  row-major order as the 4096 x 11008 matrix.
-/
import proofs.«401889_j62148176773135_3_alg».proof.Proof.Gen.KernelIdeal.Frame
import proofs.«401889_j62148176773135_3_alg».proof.Proof.Spec
import proofs.«401889_j62148176773135_3_alg».proof.Proof.Payload
import proofs.«401889_j62148176773135_3_alg».proof.Proof.BodyValue
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- The three argument arrays as the program is launched with them. -/
abbrev codesArr (c : Dev nD) : IVec S2x5636096 32 := m ((c : Thread nD τ).loc main_arg0)
abbrev booksArr (c : Dev nD) : FVec Ideal S2x256x4 .f32 := m ((c : Thread nD τ).loc main_arg1)
abbrev scalesArr (c : Dev nD) : FVec Ideal S704512x1 .f32 := m ((c : Thread nD τ).loc main_arg2)

/-! ## What the host lines before the region leave in the four operand arrays -/

theorem V_codes (c : Dev nD) :
    (V m c main_v4 : S2x5636096x1.Idx → BitVec 32)
      = broadcastInDim S2x5636096x1 ![0, 1] Facts₀.bcast_S2x5636096_S2x5636096x1_0_1 (codesArr m c) := by
  show StableHlo.after hostOps0 (fun b => m (c, b)) (Proc.devRef .tc main_v4) = _
  after_results

theorem V_hi (c : Dev nD) :
    (V m c main_v0 : S2x256x4.Idx → EReal) = truncf .bf16 (booksArr m c) Facts₀.bitsLt_bf16_f32 := by
  show StableHlo.after hostOps0 (fun b => m (c, b)) (Proc.devRef .tc main_v0) = _
  after_results

theorem V_lo (c : Dev nD) :
    (V m c main_v3 : S2x256x4.Idx → EReal)
      = truncf .bf16 (subf (booksArr m c) (extf .f32 (truncf .bf16 (booksArr m c) Facts₀.bitsLt_bf16_f32) Facts₀.bitsLt_bf16_f32)) Facts₀.bitsLt_bf16_f32 := by
  show StableHlo.after hostOps0 (fun b => m (c, b)) (Proc.devRef .tc main_v3) = _
  after_results

theorem V_scales (c : Dev nD) :
    (V m c main_v7 : S2x5636096x1.Idx → EReal)
      = shapeCast S2x5636096x1 (broadcastInDim S2x352256x16x1 ![0, 1, 3] Facts₀.bcast_S2x352256x1_S2x352256x16x1_0_1_3
          (shapeCast S2x352256x1 (scalesArr m c) Facts₀.shapeCasts_S704512x1_S2x352256x1)) Facts₀.shapeCasts_S2x352256x16x1_S2x5636096x1 := by
  show StableHlo.after hostOps0 (fun b => m (c, b)) (Proc.devRef .tc main_v7) = _
  after_results
  rfl

/-! ## Where a grid point's blocks sit: point t works on codebook t / 688 and on rows (t % 688) * 8192 … of it -/

theorem idx_facts : ∀ t : Fin cfg0.N,
    (win0_0.index t (0 : Fin 3) = t.val / 688 ∧ win0_0.index t (1 : Fin 3) = t.val % 688 ∧ win0_0.index t (2 : Fin 3) = 0)
    ∧ (win0_1.index t (0 : Fin 3) = t.val / 688 ∧ win0_1.index t (1 : Fin 3) = 0 ∧ win0_1.index t (2 : Fin 3) = 0)
    ∧ (win0_2.index t (0 : Fin 3) = t.val / 688 ∧ win0_2.index t (1 : Fin 3) = 0 ∧ win0_2.index t (2 : Fin 3) = 0)
    ∧ (win0_3.index t (0 : Fin 3) = t.val / 688 ∧ win0_3.index t (1 : Fin 3) = t.val % 688 ∧ win0_3.index t (2 : Fin 3) = 0)
    ∧ (win0_4.index t (0 : Fin 3) = t.val / 688 ∧ win0_4.index t (1 : Fin 3) = t.val % 688 ∧ win0_4.index t (2 : Fin 3) = 0) :=
  (by decide +kernel : ∀ t : Fin grid0.N, _)

theorem point_lt (t : Fin cfg0.N) : t.val < 1376 := by
  exact lt_of_lt_of_eq t.isLt N_0

/-- The codebook a grid point works on. -/
def bookOf (t : Fin cfg0.N) : Fin 2 := ⟨t.val / 688, by have := point_lt t; omega⟩
/-- The vector, within its codebook, that row `q` of a grid point's block is. -/
def rowOf (t : Fin cfg0.N) (q : Fin 8192) : Fin 5636096 := ⟨t.val % 688 * 8192 + q.val, by have := point_lt t; omega⟩

/-- Row `q` of the codes block at point `t`. -/
theorem codes_blk (c : Dev nD) (t : Fin cfg0.N) (q : Fin 8192) :
    (iblk m c 0 t : Vec Ideal S1x8192x1 .i32) (ix3 (0 : Fin 1) q (0 : Fin 1))
      = codesArr m c (ix2 (bookOf t) (rowOf t q)) := by
  obtain ⟨⟨e0, e1, e2⟩, -⟩ := idx_facts t
  unfold iblk
  rw [View.read_apply]
  show V m c main_v4 _ = _
  rw [V_codes]
  refine broadcastInDim_apply _ _ _ _ (ix2 (bookOf t) (rowOf t q)) fun a => ?_
  match a with
  | ⟨0, _⟩ => show t.val / 688 = win0_0.index t (0 : Fin 3) * 1 + 1 * 0; omega
  | ⟨1, _⟩ => show t.val % 688 * 8192 + q.val = win0_0.index t (1 : Fin 3) * 8192 + 1 * q.val; omega

/-- Entry (k, d) of the hi block at point `t`: the codebook's entry (the format change is the identity). -/
theorem hi_blk (c : Dev nD) (t : Fin cfg0.N) (k : Fin 256) (d : Fin 4) :
    (iblk m c 1 t : Vec Ideal S1x256x4 .bf16) (ix3 (0 : Fin 1) k d) = booksArr m c (ix3 (bookOf t) k d) := by
  obtain ⟨-, ⟨e0, e1, e2⟩, -⟩ := idx_facts t
  unfold iblk
  rw [View.read_apply]
  show V m c main_v0 _ = _
  rw [V_hi]
  show booksArr m c _ = booksArr m c _
  congr 1
  funext a
  apply Fin.ext
  match a with
  | ⟨0, _⟩ => show win0_1.index t (0 : Fin 3) * 1 + 1 * 0 = t.val / 688; omega
  | ⟨1, _⟩ => show win0_1.index t (1 : Fin 3) * 256 + 1 * k.val = k.val; omega
  | ⟨2, _⟩ => show win0_1.index t (2 : Fin 3) * 4 + 1 * d.val = d.val; omega

/-- Entry (k, d) of the lo block at point `t`: the codebook's entry minus itself. -/
theorem lo_blk (c : Dev nD) (t : Fin cfg0.N) (k : Fin 256) (d : Fin 4) :
    (iblk m c 2 t : Vec Ideal S1x256x4 .bf16) (ix3 (0 : Fin 1) k d)
      = booksArr m c (ix3 (bookOf t) k d) - booksArr m c (ix3 (bookOf t) k d) := by
  obtain ⟨-, -, ⟨e0, e1, e2⟩, -⟩ := idx_facts t
  unfold iblk
  rw [View.read_apply]
  show V m c main_v3 _ = _
  rw [V_lo]
  have hj : ((cfg0.win 2).blk t).view.emb (ix3 (0 : Fin 1) k d) = ix3 (bookOf t) k d := by
    funext a
    apply Fin.ext
    match a with
    | ⟨0, _⟩ => show win0_2.index t (0 : Fin 3) * 1 + 1 * 0 = t.val / 688; omega
    | ⟨1, _⟩ => show win0_2.index t (1 : Fin 3) * 256 + 1 * k.val = k.val; omega
    | ⟨2, _⟩ => show win0_2.index t (2 : Fin 3) * 4 + 1 * d.val = d.val; omega
  rw [hj]
  rfl

/-- Row `q` of the scales block at point `t`: the scale of the run of sixteen vectors the row lies in. -/
theorem scales_blk (c : Dev nD) (t : Fin cfg0.N) (q : Fin 8192) :
    (iblk m c 3 t : Vec Ideal S1x8192x1 .f32) (ix3 (0 : Fin 1) q (0 : Fin 1))
      = scalesArr m c (ix2 (Cert.Spec.scaleRow (bookOf t) (rowOf t q)) (0 : Fin 1)) := by
  obtain ⟨-, -, -, ⟨e0, e1, e2⟩, -⟩ := idx_facts t
  have ht := point_lt t
  unfold iblk
  rw [View.read_apply]
  show V m c main_v7 _ = _
  rw [V_scales]
  have hr : (rowOf t q).val = t.val % 688 * 8192 + q.val := rfl
  have hb : (bookOf t).val = t.val / 688 := rfl
  refine (shapeCast_apply _ _ _ (ix4 (bookOf t) (⟨(rowOf t q).val / 16, by omega⟩ : Fin 352256) (⟨(rowOf t q).val % 16, by omega⟩ : Fin 16) (0 : Fin 1)) ?_).trans ?_
  · rw [Shape.rowMajor_val_four, Shape.rowMajor_val_three]
    show (((bookOf t).val * 352256 + (rowOf t q).val / 16) * 16 + (rowOf t q).val % 16) * 1 + 0
      = ((win0_3.index t (0 : Fin 3) * 1 + 1 * 0) * 5636096 + (win0_3.index t (1 : Fin 3) * 8192 + 1 * q.val)) * 1 + (win0_3.index t (2 : Fin 3) * 1 + 1 * 0)
    omega
  refine (broadcastInDim_apply _ _ _ _ (ix3 (bookOf t) (⟨(rowOf t q).val / 16, by omega⟩ : Fin 352256) (0 : Fin 1)) fun a => ?_).trans ?_
  · match a with
    | ⟨0, _⟩ => rfl
    | ⟨1, _⟩ => rfl
    | ⟨2, _⟩ => rfl
  refine shapeCast_apply _ _ _ _ ?_
  rw [Shape.rowMajor_val_two, Shape.rowMajor_val_three]
  show (Cert.Spec.scaleRow (bookOf t) (rowOf t q)).val * 1 + 0 = ((bookOf t).val * 352256 + (rowOf t q).val / 16) * 1 + 0
  rfl

/-! ## What a grid point writes back, and the whole array -/

/-- A finite number plus (itself minus itself) is itself. -/
theorem add_sub_self_of_real (x : EReal) (h : ∃ a : ℝ, x = (a : EReal)) : x + (x - x) = x := by
  obtain ⟨a, rfl⟩ := h
  rw [← EReal.coe_sub, sub_self, EReal.coe_zero, add_zero]

/-- The weights at an index given by its coordinates. -/
theorem weights_at (codes : IVec Cert.Spec.SCodes 32) (books : FVec Ideal Cert.Spec.SBooks .f32) (scales : FVec Ideal Cert.Spec.SScales .f32)
    (j : Cert.Spec.SVecs.Idx) (b : Fin 2) (r : Fin 5636096) (d : Fin 4) (h0 : (j 0).val = b.val) (h1 : (j 1).val = r.val) (h2 : (j 2).val = d.val) :
    Cert.Spec.weights codes books scales j = Cert.Spec.weightAt codes books scales b r d := by
  have e : j = ix3 b r d := by
    funext a
    apply Fin.ext
    match a with
    | ⟨0, _⟩ => exact h0
    | ⟨1, _⟩ => exact h1
    | ⟨2, _⟩ => exact h2
  rw [e]
  rfl

/-- WHAT POINT `t` WRITES BACK is block `t` of the dequantised weights, when the codes are in range and the codebooks finite. -/
theorem flushed_eq (c : Dev nD) (hr : Cert.Spec.InRange (codesArr m c)) (hb : Cert.Spec.Finite (booksArr m c)) (t : Fin cfg0.N) :
    (dats m 0 c).flushed 4 t = ((cfg0.win 4).blk t).view.read (Elt Ideal)
      (Cert.Spec.weights (codesArr m c) (booksArr m c) (scalesArr m c)) := by
  obtain ⟨-, -, -, -, ⟨e0, e1, e2⟩⟩ := idx_facts t
  show (cfg0.win 4).cut (grid0.coords t) ((dats m 0 c).after 4 t) = _
  rw [after0_4]
  unfold outsAt0
  funext y
  have hy0 : (y 0).val < 1 := (y 0).isLt
  have hy1 : (y 1).val < 8192 := (y 1).isLt
  have hy2 : (y 2).val < 4 := (y 2).isLt
  have e : (cfg0.win 4).xinj (grid0.coords t) y = ix3 (0 : Fin 1) (⟨(y 1).val, hy1⟩ : Fin 8192) (⟨(y 2).val, hy2⟩ : Fin 4) := by
    funext a
    apply Fin.ext
    match a with
    | ⟨0, _⟩ => show (y 0).val = 0; omega
    | ⟨1, _⟩ => rfl
    | ⟨2, _⟩ => rfl
  show out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) ((cfg0.win 4).xinj (grid0.coords t) y) = _
  rw [e, Cert.KernelIdeal.BodyValue.out0_A_4_apply _ _ _ _ _ _ _ _ _ _ _ _ _ _ _ _ _ _ Cert.KernelIdeal.PayloadValue.k0_pay1_apply, codes_blk, hi_blk, lo_blk, scales_blk, View.read_apply]
  rw [weights_at _ _ _ _ (bookOf t) (rowOf t ⟨(y 1).val, hy1⟩) ⟨(y 2).val, hy2⟩
    (show win0_4.index t (0 : Fin 3) * 1 + 1 * (y 0).val = t.val / 688 by omega)
    (show win0_4.index t (1 : Fin 3) * 8192 + 1 * (y 1).val = t.val % 688 * 8192 + (y 1).val by omega)
    (show win0_4.index t (2 : Fin 3) * 4 + 1 * (y 2).val = (y 2).val by omega)]
  unfold Cert.Spec.weightAt
  rw [Cert.Spec.clamp_eq_centroid _ (hr _), add_sub_self_of_real _ (hb _)]
  rfl

/-- An index of the output array is in point `t`'s block iff each coordinate is in the block's range on its axis. -/
theorem mem_blk (t : Fin cfg0.N) (i : S2x5636096x4.Idx) :
    i ∈ ((cfg0.win 4).blk t).view.set ↔ ∀ a : Fin 3, win0_4.index t a * S1x8192x4.size a ≤ (i a).val ∧ (i a).val < win0_4.index t a * S1x8192x4.size a + S1x8192x4.size a := by
  show i ∈ ((View.whole main_v8).slice (win0_4.rect t)).set ↔ _
  rw [View.set_slice_whole, Rect.mem_set_unit]
  exact Iff.rfl

/-- Every index of the output array lies in some point's block: vector `r` of codebook `b` in the block of point b * 688 + r / 8192. -/
theorem cover (i : S2x5636096x4.Idx) : ∃ t : Fin cfg0.N, (cfg0.win 4).flush t = true ∧ i ∈ ((cfg0.win 4).blk t).view.set := by
  have h0 : (i 0).val < 2 := (i 0).isLt
  have h1 : (i 1).val < 5636096 := (i 1).isLt
  have h2 : (i 2).val < 4 := (i 2).isLt
  let t : Fin cfg0.N := ⟨(i 0).val * 688 + (i 1).val / 8192, by rw [show cfg0.N = 1376 from N_0]; omega⟩
  have htv : t.val = (i 0).val * 688 + (i 1).val / 8192 := rfl
  obtain ⟨-, -, -, -, ⟨e0, e1, e2⟩⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8192 ≤ (i 1).val ∧ (i 1).val < win0_4.index t (1 : Fin 3) * 8192 + 8192; omega
  | ⟨2, _⟩ => show win0_4.index t (2 : Fin 3) * 4 ≤ (i 2).val ∧ (i 2).val < win0_4.index t (2 : Fin 3) * 4 + 4; omega

/-- THE OUTPUT ARRAY after the region: the dequantised weights. -/
theorem final (c : Dev nD) (hr : Cert.Spec.InRange (codesArr m c)) (hb : Cert.Spec.Finite (booksArr m c)) :
    (dats m 0 c).arrAt 4 cfg0.N = Cert.Spec.weights (codesArr m c) (booksArr m c) (scalesArr m c) :=
  (dats m 0 c).arrAt_eq_of_cover 4 _ (fun t _ => flushed_eq m c hr hb t) cover

/-- The host line after the region re-reads that array as the 4096 x 11008 matrix. -/
theorem tail_eq (c : Dev nD) (hr : Cert.Spec.InRange (codesArr m c)) (hb : Cert.Spec.Finite (booksArr m c)) :
    Pipeline.afterTail₀ cfgs (dats m) 0 (V0 m) [hostOps1] c main_v9
      = Cert.Spec.result (codesArr m c) (booksArr m c) (scalesArr m c) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = Cert.Spec.weights (codesArr m c) (booksArr m c) (scalesArr m c) :=
    (Pipeline.withArrays_arr spec0 launch0.win.arr_inj c _ _ 4).trans (final m c hr hb)
  rw [hw]
  rfl

/-- THE RUN, read: the result at the specification's function of the arguments, the arguments unchanged. -/
theorem run (hpre : ∀ c : Dev nD, Cert.Spec.InRange (codesArr m c) ∧ Cert.Spec.Finite (booksArr m c)) :
    θ_run defs (onTc (τ := τ) (main (F := Ideal))) ⟨m, fun _ => 0, ρ⟩ fun r => ∀ c : Dev nD,
      r.2.mem ((c.tc : Thread nD τ).loc main_v9) = Cert.Spec.result (codesArr m c) (booksArr m c) (scalesArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c (hpre c).1 (hpre c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefTerm.lean ====
/-
  The reference program's result as ONE pure term of its three argument arrays: its host operations composed in
  the order @main runs them, the two outlined functions (the gather with its index normalisation and bounds mask,
  and the select inside it) written out where they are called.
-/
import proofs.«401889_j62148176773135_3_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Cert.ReferenceIdeal.Facts]

/-- The flat row numbers the reference gathers: each code plus 256 times its codebook's number, read in row-major
    order as one list of 11272192 numbers. -/
def flatIdx (codes : IVec S2x5636096 32) : IVec S11272192 32 :=
  shapeCast S11272192
    (addi codes
      (broadcastInDim S2x5636096 ![0, 1] bcast_S2x1_S2x5636096_0_1
        (broadcastInDim S2x1 ![0] bcast_S2_S2x1_0
          (muli (iotaInDim S2 32 0) (broadcastInDim S2 ![] bcast_S_S2 (constantI S_ 32 256#32))))))
    shapeCasts_S2x5636096_S11272192

/-- The gather's start indices: a negative row number moved up by 512, as a column. -/
def startIdx (idx : IVec S11272192 32) : IVec S11272192x1 32 :=
  broadcastInDim S11272192x1 ![0] bcast_S11272192_S11272192x1_0
    (select (cmpi .slt idx (broadcastInDim S11272192 ![] bcast_S_S11272192 (constantI S_ 32 0#32)))
      (addi idx (broadcastInDim S11272192 ![] bcast_S_S11272192 (constantI S_ 32 512#32))) idx)

/-- The bounds mask: the start index lies in 0..511. -/
def inBounds (st : IVec S11272192x1 32) : IVec S11272192 1 :=
  Host.reduce IntOp.andi
    (andi (cmpi .sge st (broadcastInDim S11272192x1 ![] bcast_S_S11272192x1 (constantI S_ 32 0#32)))
      (cmpi .sle st (broadcastInDim S11272192x1 ![0, 1] bcast_S1x1_S11272192x1_0_1
        (broadcastInDim S1x1 ![1] bcast_S1_S1x1_1 (constantI S1 32 511#32)))))
    (constantI S_ 1 1#1) reducesTo_S11272192x1_S11272192_d1 h_S_

/-- The rows taken from the 512 x 4 table, a row out of bounds filled with the fill constant. -/
def taken (table : FVec F S512x4 .f32) (idx : IVec S11272192 32) : FVec F S11272192x4 .f32 :=
  select (broadcastInDim S11272192x4 ![0] bcast_S11272192_S11272192x4_0 (inBounds (startIdx idx)))
    (Host.gather gather_S512x4_S11272192x1_S11272192x4_1_0_n_n_0_1_14 table (startIdx idx))
    (broadcastInDim S11272192x4 ![] bcast_S_S11272192x4 (constant S_ .f32 0x7FC00000#32))

/-- The reference's result as a term of its arguments. -/
def refTerm (codes : IVec S2x5636096 32) (books : FVec F S2x256x4 .f32) (scales : FVec F S704512x1 .f32) :
    FVec F S4096x11008 .f32 :=
  shapeCast S4096x11008
    (mulf
      (shapeCast S704512x64 (taken (shapeCast S512x4 books shapeCasts_S2x256x4_S512x4) (flatIdx codes))
        shapeCasts_S11272192x4_S704512x64)
      (broadcastInDim S704512x64 ![0, 1] bcast_S704512x1_S704512x64_0_1 scales))
    shapeCasts_S704512x64_S4096x11008

end Cert.ReferenceIdeal.Hand

end
-- ==== Proof.RefRun.lean ====
/-
  The reference program's run, read back: @main written as the list of its thirty-six host operations in program
  order (the outlined gather function and the select inside it listed where they are called, over the buffers of
  that call), and the statement that every weakly fair execution ends with the result buffer at the pure term of
  the three arguments and the arguments unchanged.
-/
import proofs.«401889_j62148176773135_3_alg».proof.Proof.Gen.ReferenceIdeal
import proofs.«401889_j62148176773135_3_alg».proof.Proof.RefTerm
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- @main's operations in program order, the called function's over the typed references its body is printed with. Nine of its own (the codebook offsets 0 and 256, added to the codes; the
    two flattenings), then the gather function's twenty-three over the buffers of its call — a negative row number
    is moved up by 512 (the comparison, the sum, and the inner function's one select), the bounds mask
    0 ≤ start ≤ 511 reduced over the index column, the gather itself, and the select that fills a row out of
    bounds —, then @main's last four: the rows regrouped in runs of 64, the scales broadcast along a run, the
    product, and the final re-reading as the matrix. -/
abbrev opsT : List (HloOp τ sig (Elt F)) :=
  [ nullary main_v0 (iotaInDim S2 32 0),
    nullary main_c (constantI S_ 32 256#32),
    unary main_c main_v1 (broadcastInDim S2 ![] bcast_S_S2 : (⟨S_, .i32⟩ : BufTy).Contents (Elt F) → (⟨S2, .i32⟩ : BufTy).Contents (Elt F)),
    binary main_v0 main_v1 main_v2 (muli : (⟨S2, .i32⟩ : BufTy).Contents (Elt F) → (⟨S2, .i32⟩ : BufTy).Contents (Elt F) → (⟨S2, .i32⟩ : BufTy).Contents (Elt F)),
    unary main_v2 main_v3 (broadcastInDim S2x1 ![0] bcast_S2_S2x1_0 : (⟨S2, .i32⟩ : BufTy).Contents (Elt F) → (⟨S2x1, .i32⟩ : BufTy).Contents (Elt F)),
    unary main_v3 main_v4 (broadcastInDim S2x5636096 ![0, 1] bcast_S2x1_S2x5636096_0_1 : (⟨S2x1, .i32⟩ : BufTy).Contents (Elt F) → (⟨S2x5636096, .i32⟩ : BufTy).Contents (Elt F)),
    binary main_arg0 main_v4 main_v5 (addi : (⟨S2x5636096, .i32⟩ : BufTy).Contents (Elt F) → (⟨S2x5636096, .i32⟩ : BufTy).Contents (Elt F) → (⟨S2x5636096, .i32⟩ : BufTy).Contents (Elt F)),
    reshape main_v5 main_v6 rfl shapeCasts_S2x5636096_S11272192,
    reshape main_arg1 main_v7 rfl shapeCasts_S2x256x4_S512x4,
    TRef.nullary main_call0.c (constantI S_ 32 0#32),
    TRef.unary main_call0.c main_call0.v0 (broadcastInDim S11272192 ![] bcast_S_S11272192),
    TRef.binary (.of main_v6) main_call0.v0 main_call0.v1 (cmpi .slt),
    TRef.nullary main_call0.c_0 (constantI S_ 32 512#32),
    TRef.unary main_call0.c_0 main_call0.v2 (broadcastInDim S11272192 ![] bcast_S_S11272192),
    TRef.binary (.of main_v6) main_call0.v2 main_call0.v3 addi,
    TRef.ternary main_call0.v1 main_call0.v3 (.of main_v6) main_call0.call0.v0 select,
    TRef.unary main_call0.call0.v0 main_call0.v5 (broadcastInDim S11272192x1 ![0] bcast_S11272192_S11272192x1_0),
    TRef.nullary main_call0.c_1 (constantI S1 32 511#32),
    TRef.nullary main_call0.c_2 (constantI S_ 32 0#32),
    TRef.unary main_call0.c_2 main_call0.v6 (broadcastInDim S11272192x1 ![] bcast_S_S11272192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S11272192x1 ![0, 1] bcast_S1x1_S11272192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S11272192x1_S11272192_d1 h_S_),
    TRef.binary (.of main_v7) main_call0.v5 main_call0.v13 (fun x i => Host.gather gather_S512x4_S11272192x1_S11272192x4_1_0_n_n_0_1_14 x i),
    TRef.unary main_call0.v12 main_call0.v14 (broadcastInDim S11272192x4 ![0] bcast_S11272192_S11272192x4_0),
    TRef.nullary main_call0.cst (constant S_ .f32 0x7FC00000#32),
    TRef.unary main_call0.cst main_call0.v15 (broadcastInDim S11272192x4 ![] bcast_S_S11272192x4),
    TRef.ternary main_call0.v14 main_call0.v13 main_call0.v15 main_call0.v16 select,
    reshape main_v8 main_v9 rfl shapeCasts_S11272192x4_S704512x64,
    unary main_arg2 main_v10 (broadcastInDim S704512x64 ![0, 1] bcast_S704512x1_S704512x64_0_1 : (⟨S704512x1, .f32⟩ : BufTy).Contents (Elt F) → (⟨S704512x64, .f32⟩ : BufTy).Contents (Elt F)),
    binary main_v9 main_v10 main_v11 (mulf : (⟨S704512x64, .f32⟩ : BufTy).Contents (Elt F) → (⟨S704512x64, .f32⟩ : BufTy).Contents (Elt F) → (⟨S704512x64, .f32⟩ : BufTy).Contents (Elt F)),
    reshape main_v11 main_v12 rfl shapeCasts_S704512x64_S4096x11008 ]

/-- The same operations, each at its buffer: a typed reference to a literal buffer is that buffer, and moving contents
    to the buffer's own type and back is the identity. -/
abbrev ops : List (HloOp τ sig (Elt F)) :=
  [ nullary main_v0 (iotaInDim S2 32 0),
    nullary main_c (constantI S_ 32 256#32),
    unary main_c main_v1 (broadcastInDim S2 ![] bcast_S_S2 : (⟨S_, .i32⟩ : BufTy).Contents (Elt F) → (⟨S2, .i32⟩ : BufTy).Contents (Elt F)),
    binary main_v0 main_v1 main_v2 (muli : (⟨S2, .i32⟩ : BufTy).Contents (Elt F) → (⟨S2, .i32⟩ : BufTy).Contents (Elt F) → (⟨S2, .i32⟩ : BufTy).Contents (Elt F)),
    unary main_v2 main_v3 (broadcastInDim S2x1 ![0] bcast_S2_S2x1_0 : (⟨S2, .i32⟩ : BufTy).Contents (Elt F) → (⟨S2x1, .i32⟩ : BufTy).Contents (Elt F)),
    unary main_v3 main_v4 (broadcastInDim S2x5636096 ![0, 1] bcast_S2x1_S2x5636096_0_1 : (⟨S2x1, .i32⟩ : BufTy).Contents (Elt F) → (⟨S2x5636096, .i32⟩ : BufTy).Contents (Elt F)),
    binary main_arg0 main_v4 main_v5 (addi : (⟨S2x5636096, .i32⟩ : BufTy).Contents (Elt F) → (⟨S2x5636096, .i32⟩ : BufTy).Contents (Elt F) → (⟨S2x5636096, .i32⟩ : BufTy).Contents (Elt F)),
    reshape main_v5 main_v6 rfl shapeCasts_S2x5636096_S11272192,
    reshape main_arg1 main_v7 rfl shapeCasts_S2x256x4_S512x4,
    nullary main_call0_c (constantI S_ 32 0#32 : (⟨S_, .i32⟩ : BufTy).Contents (Elt F)),
    unary main_call0_c main_call0_v0 (broadcastInDim S11272192 ![] bcast_S_S11272192 : (⟨S_, .i32⟩ : BufTy).Contents (Elt F) → (⟨S11272192, .i32⟩ : BufTy).Contents (Elt F)),
    binary main_v6 main_call0_v0 main_call0_v1 (cmpi .slt : (⟨S11272192, .i32⟩ : BufTy).Contents (Elt F) → (⟨S11272192, .i32⟩ : BufTy).Contents (Elt F) → (⟨S11272192, .i1⟩ : BufTy).Contents (Elt F)),
    nullary main_call0_c_0 (constantI S_ 32 512#32 : (⟨S_, .i32⟩ : BufTy).Contents (Elt F)),
    unary main_call0_c_0 main_call0_v2 (broadcastInDim S11272192 ![] bcast_S_S11272192 : (⟨S_, .i32⟩ : BufTy).Contents (Elt F) → (⟨S11272192, .i32⟩ : BufTy).Contents (Elt F)),
    binary main_v6 main_call0_v2 main_call0_v3 (addi : (⟨S11272192, .i32⟩ : BufTy).Contents (Elt F) → (⟨S11272192, .i32⟩ : BufTy).Contents (Elt F) → (⟨S11272192, .i32⟩ : BufTy).Contents (Elt F)),
    ternary main_call0_v1 main_call0_v3 main_v6 main_call0_v4 (select : (⟨S11272192, .i1⟩ : BufTy).Contents (Elt F) → (⟨S11272192, .i32⟩ : BufTy).Contents (Elt F) → (⟨S11272192, .i32⟩ : BufTy).Contents (Elt F) → (⟨S11272192, .i32⟩ : BufTy).Contents (Elt F)),
    unary main_call0_v4 main_call0_v5 (broadcastInDim S11272192x1 ![0] bcast_S11272192_S11272192x1_0 : (⟨S11272192, .i32⟩ : BufTy).Contents (Elt F) → (⟨S11272192x1, .i32⟩ : BufTy).Contents (Elt F)),
    nullary main_call0_c_1 (constantI S1 32 511#32 : (⟨S1, .i32⟩ : BufTy).Contents (Elt F)),
    nullary main_call0_c_2 (constantI S_ 32 0#32 : (⟨S_, .i32⟩ : BufTy).Contents (Elt F)),
    unary main_call0_c_2 main_call0_v6 (broadcastInDim S11272192x1 ![] bcast_S_S11272192x1 : (⟨S_, .i32⟩ : BufTy).Contents (Elt F) → (⟨S11272192x1, .i32⟩ : BufTy).Contents (Elt F)),
    binary main_call0_v5 main_call0_v6 main_call0_v7 (cmpi .sge : (⟨S11272192x1, .i32⟩ : BufTy).Contents (Elt F) → (⟨S11272192x1, .i32⟩ : BufTy).Contents (Elt F) → (⟨S11272192x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S11272192x1 ![0, 1] bcast_S1x1_S11272192x1_0_1 : (⟨S1x1, .i32⟩ : BufTy).Contents (Elt F) → (⟨S11272192x1, .i32⟩ : BufTy).Contents (Elt F)),
    binary main_call0_v5 main_call0_v9 main_call0_v10 (cmpi .sle : (⟨S11272192x1, .i32⟩ : BufTy).Contents (Elt F) → (⟨S11272192x1, .i32⟩ : BufTy).Contents (Elt F) → (⟨S11272192x1, .i1⟩ : BufTy).Contents (Elt F)),
    binary main_call0_v7 main_call0_v10 main_call0_v11 (andi : (⟨S11272192x1, .i1⟩ : BufTy).Contents (Elt F) → (⟨S11272192x1, .i1⟩ : BufTy).Contents (Elt F) → (⟨S11272192x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S11272192x1_S11272192_d1 h_S_ : (⟨S11272192x1, .i1⟩ : BufTy).Contents (Elt F) → (⟨S_, .i1⟩ : BufTy).Contents (Elt F) → (⟨S11272192, .i1⟩ : BufTy).Contents (Elt F)),
    binary main_v7 main_call0_v5 main_call0_v13 (fun x i => Host.gather gather_S512x4_S11272192x1_S11272192x4_1_0_n_n_0_1_14 x i : (⟨S512x4, .f32⟩ : BufTy).Contents (Elt F) → (⟨S11272192x1, .i32⟩ : BufTy).Contents (Elt F) → (⟨S11272192x4, .f32⟩ : BufTy).Contents (Elt F)),
    unary main_call0_v12 main_call0_v14 (broadcastInDim S11272192x4 ![0] bcast_S11272192_S11272192x4_0 : (⟨S11272192, .i1⟩ : BufTy).Contents (Elt F) → (⟨S11272192x4, .i1⟩ : BufTy).Contents (Elt F)),
    nullary main_call0_cst (constant S_ .f32 0x7FC00000#32 : (⟨S_, .f32⟩ : BufTy).Contents (Elt F)),
    unary main_call0_cst main_call0_v15 (broadcastInDim S11272192x4 ![] bcast_S_S11272192x4 : (⟨S_, .f32⟩ : BufTy).Contents (Elt F) → (⟨S11272192x4, .f32⟩ : BufTy).Contents (Elt F)),
    ternary main_call0_v14 main_call0_v13 main_call0_v15 main_v8 (select : (⟨S11272192x4, .i1⟩ : BufTy).Contents (Elt F) → (⟨S11272192x4, .f32⟩ : BufTy).Contents (Elt F) → (⟨S11272192x4, .f32⟩ : BufTy).Contents (Elt F) → (⟨S11272192x4, .f32⟩ : BufTy).Contents (Elt F)),
    reshape main_v8 main_v9 rfl shapeCasts_S11272192x4_S704512x64,
    unary main_arg2 main_v10 (broadcastInDim S704512x64 ![0, 1] bcast_S704512x1_S704512x64_0_1 : (⟨S704512x1, .f32⟩ : BufTy).Contents (Elt F) → (⟨S704512x64, .f32⟩ : BufTy).Contents (Elt F)),
    binary main_v9 main_v10 main_v11 (mulf : (⟨S704512x64, .f32⟩ : BufTy).Contents (Elt F) → (⟨S704512x64, .f32⟩ : BufTy).Contents (Elt F) → (⟨S704512x64, .f32⟩ : BufTy).Contents (Elt F)),
    reshape main_v11 main_v12 rfl shapeCasts_S704512x64_S4096x11008 ]

set_option maxRecDepth 2048 in
/-- @main is that straight line: the two functions' bodies unfolded at their calls, sequencing reassociated. -/
theorem main_eqT (c : Dev nD) : main (F := F) c = seq opsT := by
  simp only [main, fn_take.body, fn_where.body, seq, bind_assoc, pure_bind]

attribute [local irreducible] Host.reduce Host.gather in
/-- The two lists are one, operation by operation. -/
theorem opsT_eq : (opsT : List (HloOp τ sig (Elt F))) = ops := by
  unfold opsT ops
  simp only [List.cons.injEq, and_true, true_and]
  repeat' apply And.intro
  all_goals rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., reshape_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., unary_bufs_sub .., binary_bufs_sub .., reshape_bufs_sub ..⟩

attribute [local irreducible] Host.reduce Host.gather in
set_option maxRecDepth 8192 in
/-- The fold of the operations at the result buffer is the reference's term of the three arguments: each operation's
    result substituted into the next, the reduction and the gather kept folded. -/
theorem out_eq (V : Valuation τ sig (Elt F)) :
    after ops V (main_v12 : DevRef τ sig)
      = refTerm (V (main_arg0 : DevRef τ sig)) (V (main_arg1 : DevRef τ sig)) (V (main_arg2 : DevRef τ sig)) := by
  after_results_simp
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- On every device, from any memory with zero counters: every weakly fair execution of @main terminates with the result
    at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Hand

end
-- ==== Proof.RefValue.lean ====
/-
  The reference's result, as one term of its three argument arrays, IS the dequantisation the specification states,
  when every code lies in 0..255.

  Read at one number of the 4096 x 11008 result, whose row-major position is ((c * 5636096 + r) * 4 + d: the outer
  re-reading and the re-reading of the rows taken land on row c * 5636096 + r, component d, of the rows taken; the scales,
  one per run of 64 numbers, are read at row c * 352256 + r / 16. The flat row number there is the code plus 256 * c as
  32-bit words, below 512 and so not negative: the wrap-around of negative row numbers leaves it alone, both
  comparisons of the bounds mask hold, and the mask's reduction by "and" over its axis of extent one is 1. The gather
  then reads the 512 x 4 table at that row, and the table, the two codebooks one after the other, has centroid k of
  codebook c at row 256 * c + k.
-/
import proofs.«401889_j62148176773135_3_alg».proof.Proof.Gen.ReferenceIdeal
import proofs.«401889_j62148176773135_3_alg».proof.Proof.RefTerm
import proofs.«401889_j62148176773135_3_alg».proof.Proof.Spec
import Idealize.ShloMosaic.Lib.ValueIdx
import Idealize.ShloMosaic.Lib.Pipeline.Value

noncomputable section

namespace Cert.ReferenceIdeal.HandValue

open Idealize.ShloMosaic Idealize.ShloMosaic.ValueIdx Cert.ReferenceIdeal Cert.ReferenceIdeal.Hand
open Cert.ReferenceIdeal.Facts₀ Cert.ReferenceIdeal.Facts

/-! ## Words -/

/-- A word below 512 is not negative, so the wrap-around of negative row numbers leaves it alone. -/
theorem select_neg_wrap (w : BitVec 32) (hw : w.toNat < 512) :
    Scalar.select (IntOp.cmpi .slt w 0#32) (IntOp.addi w 512#32) w = w := by
  have h0 : IntOp.cmpi .slt w 0#32 = 0#1 := by
    show BitVec.ofBool (w.slt 0#32) = 0#1
    have : w.slt 0#32 = false := by
      rw [BitVec.slt_eq_decide, BitVec.toInt_eq_toNat_of_lt (by omega)]
      simp
    rw [this]; rfl
  rw [h0]; exact select_zero _ _

/-- A word below 512 lies in 0..511 as a signed number: both comparisons of the bounds mask hold. -/
theorem in_bounds_word (w : BitVec 32) (hw : w.toNat < 512) :
    IntOp.andi (IntOp.cmpi .sge w 0#32) (IntOp.cmpi .sle w 511#32) = 1#1 := by
  have e : w.toInt = (w.toNat : Int) := BitVec.toInt_eq_toNat_of_lt (by omega)
  have h1 : IntOp.cmpi .sge w 0#32 = 1#1 := by
    show BitVec.ofBool ((0#32).sle w) = 1#1
    have : (0#32).sle w = true := by
      rw [BitVec.sle_eq_decide, e]; simp
    rw [this]; rfl
  have h2 : IntOp.cmpi .sle w 511#32 = 1#1 := by
    show BitVec.ofBool (w.sle 511#32) = 1#1
    have : w.sle 511#32 = true := by
      rw [BitVec.sle_eq_decide, e]
      simp; omega
    rw [this]; rfl
  rw [h1, h2]; rfl

/-- A left fold by `and` from the bit 1 over bits that are all 1 is 1. -/
theorem foldl_andi_all_one {ι : Type} (g : ι → BitVec 1) (hg : ∀ n, g n = 1#1) (l : List ι) (init : BitVec 1)
    (hi : init = 1#1) : l.foldl (fun r n => IntOp.andi r (g n)) init = 1#1 := by
  induction l generalizing init with
  | nil => exact hi
  | cons a l ih =>
    rw [List.foldl_cons]
    exact ih _ (by rw [hi, hg a]; rfl)

/-! ## The flat row numbers -/

/-- The flat row number at position `c * 5636096 + r`: the code plus 256 times the codebook's number, as words. -/
theorem flatIdx_apply (codes : IVec S2x5636096 32) (c : Fin 2) (r : Fin 5636096) (v : Fin 11272192)
    (hv : v.val = c.val * 5636096 + r.val) :
    flatIdx codes (ix1 v) = codes (ix2 c r) + BitVec.ofNat 32 c.val * 256#32 := by
  unfold flatIdx
  rw [shapeCast_apply _ _ (ix1 v) (ix2 c r) (by
    rw [Shape.rowMajor_val_two, Shape.rowMajor_val_one]
    show c.val * 5636096 + r.val = v.val
    omega)]
  show IntOp.addi (codes (ix2 c r)) _ = _
  rw [broadcastInDim_apply _ _ _ (ix2 c r) (ix2 c (0 : Fin 1)) (fun a => match a with | ⟨0, _⟩ => rfl | ⟨1, _⟩ => rfl)]
  rw [broadcastInDim_apply _ _ _ (ix2 c (0 : Fin 1)) (ix1 c) (fun a => match a with | ⟨0, _⟩ => rfl)]
  rfl

/-- Under the range hypothesis every flat row number is below 512. -/
theorem flatIdx_lt (codes : IVec S2x5636096 32) (hr : Cert.Spec.InRange codes) (k : S11272192.Idx) :
    (flatIdx codes k).toNat < 512 := by
  obtain ⟨v, rfl⟩ : ∃ v : Fin 11272192, k = ix1 v := ⟨k 0, eq_ix1 k⟩
  have hvlt := v.isLt
  rw [flatIdx_apply codes ⟨v.val / 5636096, by omega⟩ ⟨v.val % 5636096, Nat.mod_lt _ (by decide)⟩ v
    (by show v.val = v.val / 5636096 * 5636096 + v.val % 5636096; omega)]
  have hc := hr (ix2 (⟨v.val / 5636096, by omega⟩ : Fin 2) (⟨v.val % 5636096, Nat.mod_lt _ (by decide)⟩ : Fin 5636096))
  have hq : v.val / 5636096 < 2 := by omega
  rw [BitVec.toNat_add, BitVec.toNat_mul, BitVec.toNat_ofNat]
  show ((codes _).toNat + (v.val / 5636096) % 2 ^ 32 * 256 % 2 ^ 32) % 2 ^ 32 < 512
  omega

/-- The value of the flat row number: the code's number plus 256 times the codebook's. -/
theorem flatIdx_toNat (codes : IVec S2x5636096 32) (hr : Cert.Spec.InRange codes) (c : Fin 2) (r : Fin 5636096)
    (v : Fin 11272192) (hv : v.val = c.val * 5636096 + r.val) :
    (flatIdx codes (ix1 v)).toNat = 256 * c.val + (codes (ix2 c r)).toNat := by
  rw [flatIdx_apply codes c r v hv]
  have hc := hr (ix2 c r)
  have hq := c.isLt
  rw [BitVec.toNat_add, BitVec.toNat_mul, BitVec.toNat_ofNat]
  show ((codes _).toNat + c.val % 2 ^ 32 * 256 % 2 ^ 32) % 2 ^ 32 = _
  omega

/-! ## The start indices and the bounds mask -/

/-- A start index is its flat row number when that is below 512 everywhere. -/
theorem startIdx_apply (idx : IVec S11272192 32) (hidx : ∀ k, (idx k).toNat < 512) (v : Fin 11272192) :
    startIdx idx (ix2 v (0 : Fin 1)) = idx (ix1 v) := by
  unfold startIdx
  rw [broadcastInDim_apply _ _ _ (ix2 v (0 : Fin 1)) (ix1 v) (fun a => match a with | ⟨0, _⟩ => rfl)]
  exact select_neg_wrap _ (hidx _)

/-- Every start index is below 512 when every flat row number is. -/
theorem startIdx_lt (idx : IVec S11272192 32) (hidx : ∀ k, (idx k).toNat < 512) (i : S11272192x1.Idx) :
    (startIdx idx i).toNat < 512 := by
  obtain ⟨v, z, rfl⟩ : ∃ (v : Fin 11272192) (z : Fin 1), i = ix2 v z := ⟨i 0, i 1, eq_ix2 i⟩
  obtain rfl : z = 0 := Subsingleton.elim _ _
  rw [startIdx_apply idx hidx v]
  exact hidx _

/-- The bounds mask is 1 at every position when every start index is below 512. -/
theorem inBounds_apply (st : IVec S11272192x1 32) (hst : ∀ i, (st i).toNat < 512) (j : S11272192.Idx) :
    inBounds st j = 1#1 := by
  unfold inBounds Host.reduce
  exact foldl_andi_all_one _ (fun n => in_bounds_word _ (hst _)) _ _ rfl

/-! ## The gather read at an index

The gather takes whole rows of a 512 x 4 table: its one start-index component names the row (operand axis 0,
collapsed), the result's second axis is the offset along operand axis 1. Result element `(v, d)` is the table at
row `start v`, read signed and clamped into 0..511, and column `d`. -/

/-- The start-indices index of result row `v`. -/
theorem gather_siIdx (j : S11272192x4.Idx)
    (c : Fin gather_S512x4_S11272192x1_S11272192x4_1_0_n_n_0_1_14.startIndexMap.length) :
    gather_S512x4_S11272192x1_S11272192x4_1_0_n_n_0_1_14.siIdx j c
      = ix2 (⟨(j 0).val, idx2_lt0 j⟩ : Fin 11272192) (0 : Fin 1) := by
  funext b
  refine Fin.ext ?_
  match b with
  | ⟨0, _⟩ => rfl
  | ⟨1, _⟩ =>
    have : c.val < 1 := c.isLt
    show c.val = 0
    omega

/-- The gather at `(v, d)`: the table at row `row`, the clamped start index, and column `d`. -/
theorem gather_apply {α : Type} {w : Nat} (table : S512x4.Idx → α) (st : IVec S11272192x1 w) (v : Fin 11272192)
    (d : Fin 4) (row : Fin 512) (hrow : row.val = min (st (ix2 v (0 : Fin 1))).toInt.toNat 511) :
    Host.gather gather_S512x4_S11272192x1_S11272192x4_1_0_n_n_0_1_14 table st (ix2 v d) = table (ix2 row d) := by
  unfold Host.gather
  congr 1
  funext a
  refine Fin.ext ?_
  match a with
  | ⟨0, _⟩ =>
    show gather_S512x4_S11272192x1_S11272192x4_1_0_n_n_0_1_14.start (ix2 v d) st 0
        + gather_S512x4_S11272192x1_S11272192x4_1_0_n_n_0_1_14.batchCoord (ix2 v d) 0
        + gather_S512x4_S11272192x1_S11272192x4_1_0_n_n_0_1_14.offCoord (ix2 v d) 0 = row.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x4_S11272192x1_S11272192x4_1_0_n_n_0_1_14.startIndexMap from
      List.mem_singleton.mpr rfl)]
    rw [gather_siIdx]
    exact hrow.symm
  | ⟨1, _⟩ =>
    show gather_S512x4_S11272192x1_S11272192x4_1_0_n_n_0_1_14.start (ix2 v d) st 1
        + gather_S512x4_S11272192x1_S11272192x4_1_0_n_n_0_1_14.batchCoord (ix2 v d) 1
        + gather_S512x4_S11272192x1_S11272192x4_1_0_n_n_0_1_14.offCoord (ix2 v d) 1 = d.val
    rw [GatherDims.batchCoord_eq_zero _ _ _ List.not_mem_nil]
    unfold GatherDims.start
    rw [dif_neg (show (1 : Fin 2) ∉ gather_S512x4_S11272192x1_S11272192x4_1_0_n_n_0_1_14.startIndexMap from by
      intro h; exact absurd (List.mem_singleton.mp h) (by decide))]
    unfold GatherDims.offCoord
    rw [dif_pos (show (1 : Fin 2) ∈ gather_S512x4_S11272192x1_S11272192x4_1_0_n_n_0_1_14.sKept from by decide)]
    simp only [Nat.zero_add, Nat.add_zero]
    rfl

/-! ## The table and the rows taken -/

/-- The 512 x 4 table is the two codebooks one after the other: row `256 * c + k` is centroid `k` of codebook `c`. -/
theorem table_apply {α : Type} (books : S2x256x4.Idx → α) (c : Fin 2) (k : Fin 256) (d : Fin 4) (row : Fin 512)
    (hrow : row.val = 256 * c.val + k.val) :
    shapeCast S512x4 books shapeCasts_S2x256x4_S512x4 (ix2 row d) = books (ix3 c k d) :=
  shapeCast_apply _ _ (ix2 row d) (ix3 c k d) (by
    rw [Shape.rowMajor_val_three, Shape.rowMajor_val_two]
    show (c.val * 256 + k.val) * 4 + d.val = row.val * 4 + d.val
    omega)

/-- The row taken at position `c * 5636096 + r`, component `d`: the centroid the code names, of its codebook. -/
theorem taken_apply (codes : IVec S2x5636096 32) (books : FVec Ideal S2x256x4 .f32) (hr : Cert.Spec.InRange codes)
    (c : Fin 2) (r : Fin 5636096) (d : Fin 4) (v : Fin 11272192) (hv : v.val = c.val * 5636096 + r.val) :
    taken (shapeCast S512x4 books shapeCasts_S2x256x4_S512x4) (flatIdx codes) (ix2 v d)
      = books (ix3 c (Cert.Spec.centroid (codes (ix2 c r))) d) := by
  have hidx : ∀ k, (flatIdx codes k).toNat < 512 := flatIdx_lt codes hr
  have hst : ∀ i, (startIdx (flatIdx codes) i).toNat < 512 := startIdx_lt _ hidx
  have hc := hr (ix2 c r)
  have hq := c.isLt
  have hn := flatIdx_toNat codes hr c r v hv
  have hrow : 256 * c.val + (codes (ix2 c r)).toNat % 256
      = min (startIdx (flatIdx codes) (ix2 v (0 : Fin 1))).toInt.toNat 511 := by
    rw [startIdx_apply _ hidx v, BitVec.toInt_eq_toNat_of_lt (by have := hidx (ix1 v); omega), Int.toNat_natCast, hn]
    omega
  unfold taken
  rw [select_apply]
  rw [broadcastInDim_apply _ _ _ (ix2 v d) (ix1 v) (fun a => match a with | ⟨0, _⟩ => rfl)]
  rw [inBounds_apply _ hst, select_one]
  rw [gather_apply _ _ v d ⟨256 * c.val + (codes (ix2 c r)).toNat % 256, by omega⟩ hrow]
  exact table_apply books c (Cert.Spec.centroid (codes (ix2 c r))) d _ rfl

/-! ## The reference's term and the specification at a matrix position

Position `(R, C)` of the 4096 x 11008 result has row-major number `R * 11008 + C`; written as
`(c * 5636096 + r) * 4 + d` it is component `d` of vector `r` of codebook `c`. -/

/-- Vector `r` of codebook `c` is a position of the flat list of vectors. -/
theorem pos_lt (c : Fin 2) (r : Fin 5636096) : c.val * 5636096 + r.val < 11272192 := by
  have := c.isLt; have := r.isLt; omega

/-- Its run of 64 numbers is a row of the 704512 x 64 array … -/
theorem row_lt (c : Fin 2) (r : Fin 5636096) : c.val * 352256 + r.val / 16 < 704512 := by
  have := c.isLt; have := r.isLt; omega

/-- … and its component `d` a column of that row. -/
theorem col_lt (r : Fin 5636096) (d : Fin 4) : r.val % 16 * 4 + d.val < 64 := by
  have := d.isLt; omega

/-- The two ways of counting the same number's position agree. -/
theorem pos_eq (c : Fin 2) (r : Fin 5636096) (d : Fin 4) :
    (c.val * 5636096 + r.val) * 4 + d.val = (c.val * 352256 + r.val / 16) * 64 + (r.val % 16 * 4 + d.val) := by
  omega

/-- The reference's term at that position: the centroid's component times the vector's scale. -/
theorem refTerm_apply (codes : IVec S2x5636096 32) (books : FVec Ideal S2x256x4 .f32) (scales : FVec Ideal S704512x1 .f32)
    (hr : Cert.Spec.InRange codes) (c : Fin 2) (r : Fin 5636096) (d : Fin 4) (R : Fin 4096) (C : Fin 11008)
    (he : R.val * 11008 + C.val = (c.val * 5636096 + r.val) * 4 + d.val) :
    refTerm (F := Ideal) codes books scales (ix2 R C) = Cert.Spec.weightAt codes books scales c r d := by
  unfold refTerm
  rw [shapeCast_apply _ _ (ix2 R C) (ix2 (⟨_, row_lt c r⟩ : Fin 704512) (⟨_, col_lt r d⟩ : Fin 64)) (by
    rw [Shape.rowMajor_val_two, Shape.rowMajor_val_two]
    show (c.val * 352256 + r.val / 16) * 64 + (r.val % 16 * 4 + d.val) = R.val * 11008 + C.val
    rw [he]; exact (pos_eq c r d).symm)]
  rw [mulf_apply]
  rw [shapeCast_apply _ _ (ix2 (⟨_, row_lt c r⟩ : Fin 704512) (⟨_, col_lt r d⟩ : Fin 64))
    (ix2 (⟨_, pos_lt c r⟩ : Fin 11272192) d) (by
    rw [Shape.rowMajor_val_two, Shape.rowMajor_val_two]
    exact pos_eq c r d)]
  rw [taken_apply codes books hr c r d ⟨_, pos_lt c r⟩ rfl]
  rw [broadcastInDim_apply _ _ _ (ix2 (⟨_, row_lt c r⟩ : Fin 704512) (⟨_, col_lt r d⟩ : Fin 64))
    (ix2 (⟨_, row_lt c r⟩ : Fin 704512) (0 : Fin 1)) (fun a => match a with | ⟨0, _⟩ => rfl | ⟨1, _⟩ => rfl)]
  rfl

/-- The specification at that position: the same number. -/
theorem result_apply (codes : IVec S2x5636096 32) (books : FVec Ideal S2x256x4 .f32) (scales : FVec Ideal S704512x1 .f32)
    (c : Fin 2) (r : Fin 5636096) (d : Fin 4) (R : Fin 4096) (C : Fin 11008)
    (he : R.val * 11008 + C.val = (c.val * 5636096 + r.val) * 4 + d.val) :
    Cert.Spec.result codes books scales (ix2 R C) = Cert.Spec.weightAt codes books scales c r d := by
  unfold Cert.Spec.result
  rw [shapeCast_apply _ _ (ix2 R C) (ix3 c r d) (by
    rw [Shape.rowMajor_val_three, Shape.rowMajor_val_two]
    exact he.symm)]
  rfl

/-- A position below 2 * 5636096 * 4 splits into its codebook, vector and component. -/
theorem split_eq (e : Nat) : e = (e / 22544384 * 5636096 + e / 4 % 5636096) * 4 + e % 4 := by
  omega

/-- THE REFERENCE'S TERM IS THE SPECIFICATION, when every code lies in 0..255. -/
theorem refTerm_eq (codes : IVec Cert.Spec.SCodes 32) (books : FVec Ideal Cert.Spec.SBooks .f32) (scales : FVec Ideal Cert.Spec.SScales .f32)
    (hr : Cert.Spec.InRange codes) :
    Cert.ReferenceIdeal.Hand.refTerm (F := Ideal) codes books scales = Cert.Spec.result codes books scales := by
  funext j
  obtain ⟨R, C, rfl⟩ : ∃ (R : Fin 4096) (C : Fin 11008), j = ix2 R C := ⟨j 0, j 1, eq_ix2 j⟩
  have hc : (R.val * 11008 + C.val) / 22544384 < 2 := by
    have hR := R.isLt
    have hC := C.isLt
    omega
  have hr' : (R.val * 11008 + C.val) / 4 % 5636096 < 5636096 := Nat.mod_lt _ (by decide)
  have hd : (R.val * 11008 + C.val) % 4 < 4 := Nat.mod_lt _ (by decide)
  have heq := split_eq (R.val * 11008 + C.val)
  rw [refTerm_apply codes books scales hr ⟨_, hc⟩ ⟨_, hr'⟩ ⟨_, hd⟩ R C heq,
    result_apply codes books scales ⟨_, hc⟩ ⟨_, hr'⟩ ⟨_, hd⟩ R C heq]

end Cert.ReferenceIdeal.HandValue

end
-- ==== Proof.lean ====
/-
  The certificate of a vector-quantisation dequantiser against its jnp reference, over the extended reals.

  Both programs compute, for codebook c < 2, vector r < 5636096 and component d < 4,

      codebooks[c, codes[c, r], d] * scales[c * 352256 + r / 16, 0]

  and return the 2 x 5636096 x 4 array of these numbers re-read in row-major order as a 4096 x 11008 matrix
  (Proof/Spec.lean states that function once).  The precondition says that every float input is finite and that
  every code lies in 0..255, the range of a centroid number.

  The kernel looks a centroid up by a one-hot product: row r of a 1024 x 256 matrix holds a one at the (clamped)
  code and zeros elsewhere, and is multiplied on the matrix unit against the codebook split in two terms, hi = the
  codebook and lo = the codebook minus hi.  On the extended reals 0 * x = 0 and 1 * x = x for every x, so each
  product is the codebook term's row at the code (Proof/Payload.lean); lo is x - x, which is 0 exactly when x is
  finite, so hi + lo is the codebook's entry under the precondition, and the clamp leaves a code in range alone
  (Proof/KernelValue.lean, over the body's value in Proof/BodyValue.lean).  The reference adds 256 * c to each code,
  gathers rows of the codebooks flattened to 512 x 4 — the normalisation of a negative index and the bounds mask
  do nothing for a code in range — and multiplies by the scales broadcast over runs of 64 numbers
  (Proof/RefRun.lean runs it, Proof/RefValue.lean reads its term index by index).  Both sides are then the same
  product, in the same order, at every index.
-/
import proofs.«401889_j62148176773135_3_alg».proof.Defs
import proofs.«401889_j62148176773135_3_alg».proof.Proof.Gen.Kernel
import proofs.«401889_j62148176773135_3_alg».proof.Proof.Gen.Kernel.Skeleton
import proofs.«401889_j62148176773135_3_alg».proof.Proof.Gen.Kernel.Loops
import proofs.«401889_j62148176773135_3_alg».proof.Proof.Gen.Kernel.Launch
import proofs.«401889_j62148176773135_3_alg».proof.Proof.Gen.Kernel.Points
import proofs.«401889_j62148176773135_3_alg».proof.Proof.Gen.Kernel.Frame
import proofs.«401889_j62148176773135_3_alg».proof.Proof.Gen.KernelIdeal
import proofs.«401889_j62148176773135_3_alg».proof.Proof.Gen.KernelIdeal.Skeleton
import proofs.«401889_j62148176773135_3_alg».proof.Proof.Gen.KernelIdeal.Loops
import proofs.«401889_j62148176773135_3_alg».proof.Proof.Gen.KernelIdeal.Launch
import proofs.«401889_j62148176773135_3_alg».proof.Proof.Gen.KernelIdeal.Points
import proofs.«401889_j62148176773135_3_alg».proof.Proof.Gen.KernelIdeal.Frame
import proofs.«401889_j62148176773135_3_alg».proof.Proof.Gen.ReferenceIdeal
import proofs.«401889_j62148176773135_3_alg».proof.Proof.Gen.Pre_finite_inputs
import proofs.«401889_j62148176773135_3_alg».proof.Proof.Spec
import proofs.«401889_j62148176773135_3_alg».proof.Proof.PreFacts
import proofs.«401889_j62148176773135_3_alg».proof.Proof.KernelValue
import proofs.«401889_j62148176773135_3_alg».proof.Proof.RefRun
import proofs.«401889_j62148176773135_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- Under the precondition both runs end with the result array at the specification's function of the argument arrays:
    the kernel's by the value of its run, the reference's by its run's term read index by index. -/
theorem algebraic : Cert.algebraic_KernelIdeal_ReferenceIdeal := by
  intro m ρ m' ρ' hpre hagree
  have hP := fun c : Dev Cert.KernelIdeal.nD => Cert.PreFacts.of_pre _ _ _ (hpre c)
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ (fun c => ⟨(hP c).1, (hP c).2.1⟩), ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.HandValue.refTerm_eq _ _ _ (hP c).1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
